-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S256 .f32) (main_arg10 : FVec F S256x256 .f32) (main_arg11 : FVec F S128x256 .f32) (main_arg12 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S128x256 .f32 := Host.absf main_arg11
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S256x128 .f32) (main_arg7 : FVec F S256 .f32) (main_arg8 : FVec F S256x256 .f32) (main_arg9 : FVec F S256 .f32) (main_arg10 : FVec F S256x256 .f32) (main_arg11 : FVec F S128x256 .f32) (main_arg12 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x600000 32) (main_arg2 : IVec S600000 1) (main_arg3 : FVec F S256x128 .f32) (main_arg4 : FVec F S256 .f32) (main_arg5 : FVec F S256x128 .f32) (main_arg6 : FVec F S256x128 .f32) (main_arg7 : FVec F S256 .f32) (main_arg8 : FVec F S256x256 .f32) (main_arg9 : FVec F S256 .f32) (main_arg10 : FVec F S256x256 .f32) (main_arg11 : FVec F S128x256 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩
abbrev S600000x256 : Shape := ⟨2, ![600000, 256]⟩
abbrev S1x128 : Shape := ⟨2, ![1, 128]⟩

abbrev nBuf : Space → Nat
  | .hbm => 75
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .i1⟩
  | .hbm, ⟨3, _⟩ => ⟨S256x128, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S128x256, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .f32⟩
  | .hbm, ⟨18, _⟩ => ⟨S600000, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S50000x128, .f32⟩
  | .hbm, ⟨30, _⟩ => ⟨S600000x1, .i32⟩
  | .hbm, ⟨31, _⟩ => ⟨S50000x128, .f32⟩
  | .hbm, ⟨32, _⟩ => ⟨S_, .f32⟩
  | .hbm, ⟨33, _⟩ => ⟨S50000, .f32⟩
  | .hbm, ⟨34, _⟩ => ⟨S600000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S1x256, .f32⟩
  | .hbm, ⟨43, _⟩ => ⟨S1x256, .f32⟩
  | .hbm, ⟨44, _⟩ => ⟨S50000x256, .f32⟩
  | .hbm, ⟨45, _⟩ => ⟨S600000, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x256, .f32⟩
  | .hbm, ⟨55, _⟩ => ⟨S600000x1, .f32⟩
  | .hbm, ⟨56, _⟩ => ⟨S600000x256, .f32⟩
  | .hbm, ⟨57, _⟩ => ⟨S600000x256, .f32⟩
  | .hbm, ⟨58, _⟩ => ⟨S_, .f32⟩
  | .hbm, ⟨59, _⟩ => ⟨S50000x256, .f32⟩
  | .hbm, ⟨60, _⟩ => ⟨S600000x1, .i32⟩
  | .hbm, ⟨61, _⟩ => ⟨S50000x256, .f32⟩
  | .hbm, ⟨62, _⟩ => ⟨S_, .f32⟩
  | .hbm, ⟨63, _⟩ => ⟨S50000, .f32⟩
  | .hbm, ⟨64, _⟩ => ⟨S600000x1, .i32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x256, .f32⟩
  | .hbm, ⟨71, _⟩ => ⟨S50000x256, .f32⟩
  | .hbm, ⟨72, _⟩ => ⟨S1x256, .f32⟩
  | .hbm, ⟨73, _⟩ => ⟨S1x128, .f32⟩
  | .hbm, ⟨74, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S1x256, .f32⟩
  | .local _ .vmem, ⟨6, _⟩ => ⟨S256x128, .f32⟩
  | .local _ .vmem, ⟨7, _⟩ => ⟨S256x128, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S256x256, .f32⟩
  | .local _ .vmem, ⟨16, _⟩ => ⟨S1x256, .f32⟩
  | .local _ .vmem, ⟨17, _⟩ => ⟨S256x256, .f32⟩
  | .local _ .vmem, ⟨18, _⟩ => ⟨S128x256, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S600000x1_S600000x256_0_1 : S600000x1.BroadcastsInDim S600000x256 (![0, 1] : Fin 2 → Fin S600000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S128x256_S128x256_0_0 : ∀ a, (![0, 0] : Fin 2 → Nat) a + S128x256.size a ≤ S128x256.size a
  h_S128x256 : 0 < S128x256.numel
  transposes_S256x256_p1_0_S256x256 : S256x256.Transposes [1, 0] S256x256
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .i1⟩
  | .hbm, ⟨3, _⟩ => ⟨S256x128, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S128x256, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .f32⟩
  | .hbm, ⟨18, _⟩ => ⟨S600000, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S600000x1, .f32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S_, .f32⟩
  | .hbm, ⟨36, _⟩ => ⟨S50000, .f32⟩
  | .hbm, ⟨37, _⟩ => ⟨S600000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S128x256, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S128x256, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000, .f32⟩
  | .hbm, ⟨56, _⟩ => ⟨S50000x1, .f32⟩
  | .hbm, ⟨57, _⟩ => ⟨S50000x1, .f32⟩
  | .hbm, ⟨58, _⟩ => ⟨S_, .f32⟩
  | .hbm, ⟨59, _⟩ => ⟨S50000x1, .f32⟩
  | .hbm, ⟨60, _⟩ => ⟨S50000x1, .f32⟩
  | .hbm, ⟨61, _⟩ => ⟨S50000x256, .f32⟩
  | .hbm, ⟨62, _⟩ => ⟨S50000x256, .f32⟩
  | .hbm, ⟨63, _⟩ => ⟨S128x256, .f32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S600000, .f32⟩
  | .hbm, ⟨71, _⟩ => ⟨S_, .i32⟩
  | .hbm, ⟨72, _⟩ => ⟨S600000, .i32⟩
  | .hbm, ⟨73, _⟩ => ⟨S600000, .i1⟩
  | .hbm, ⟨74, _⟩ => ⟨S_, .i32⟩
  | .hbm, ⟨75, _⟩ => ⟨S600000, .i32⟩
  | .hbm, ⟨76, _⟩ => ⟨S600000, .i32⟩
  | .hbm, ⟨77, _⟩ => ⟨S600000, .i32⟩
  | .hbm, ⟨78, _⟩ => ⟨S600000x1, .i32⟩
  | .hbm, ⟨79, _⟩ => ⟨S600000x256, .f32⟩
  | .hbm, ⟨80, _⟩ => ⟨S600000x1, .f32⟩
  | .hbm, ⟨81, _⟩ => ⟨S600000x256, .f32⟩
  | .hbm, ⟨82, _⟩ => ⟨S600000x256, .f32⟩
  | .hbm, ⟨83, _⟩ => ⟨S_, .f32⟩
  | .hbm, ⟨84, _⟩ => ⟨S50000x256, .f32⟩
  | .hbm, ⟨85, _⟩ => ⟨S600000x1, .i32⟩
  | .hbm, ⟨86, _⟩ => ⟨S50000x256, .f32⟩
  | .hbm, ⟨87, _⟩ => ⟨S_, .f32⟩
  | .hbm, ⟨88, _⟩ => ⟨S50000, .f32⟩
  | .hbm, ⟨89, _⟩ => ⟨S600000x1, .i32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x256, .f32⟩
  | .hbm, ⟨96, _⟩ => ⟨S50000x256, .f32⟩
  | .hbm, ⟨97, _⟩ => ⟨S256x256, .f32⟩
  | .hbm, ⟨98, _⟩ => ⟨S50000x256, .f32⟩
  | .hbm, ⟨99, _⟩ => ⟨S1x256, .f32⟩
  | .hbm, ⟨100, _⟩ => ⟨S50000x256, .f32⟩
  | .hbm, ⟨101, _⟩ => ⟨S50000x256, .f32⟩
  | .hbm, ⟨102, _⟩ => ⟨S256x256, .f32⟩
  | .hbm, ⟨103, _⟩ => ⟨S50000x256, .f32⟩
  | .hbm, ⟨104, _⟩ => ⟨S50000x256, .f32⟩
  | .hbm, ⟨105, _⟩ => ⟨S50000x256, .f32⟩
  | .hbm, ⟨106, _⟩ => ⟨S_, .f32⟩
  | .hbm, ⟨107, _⟩ => ⟨S50000, .f32⟩
  | .hbm, ⟨108, _⟩ => ⟨S50000x1, .f32⟩
  | .hbm, ⟨109, _⟩ => ⟨S50000x1, .f32⟩
  | .hbm, ⟨110, _⟩ => ⟨S_, .f32⟩
  | .hbm, ⟨111, _⟩ => ⟨S50000x1, .f32⟩
  | .hbm, ⟨112, _⟩ => ⟨S50000x1, .f32⟩
  | .hbm, ⟨113, _⟩ => ⟨S50000x256, .f32⟩
  | .hbm, ⟨114, _⟩ => ⟨S50000x256, .f32⟩
  | .hbm, ⟨115, _⟩ => ⟨S50000x256, .f32⟩
  | .hbm, ⟨116, _⟩ => ⟨S256x128, .f32⟩
  | .hbm, ⟨117, _⟩ => ⟨S50000x128, .f32⟩
  | .hbm, ⟨118, _⟩ => ⟨S1x128, .f32⟩
  | .hbm, ⟨119, _⟩ => ⟨S50000x128, .f32⟩
  | .hbm, ⟨120, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call0_v0 : Ref sig .tc := ⟨.hbm, 53, rfl⟩
abbrev main_call0_cst : Ref sig .tc := ⟨.hbm, 54, rfl⟩
abbrev main_call0_v1 : Ref sig .tc := ⟨.hbm, 55, rfl⟩
abbrev main_call0_v2 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_5 : Ref sig .tc := ⟨.hbm, 71, rfl⟩
abbrev main_v47 : Ref sig .tc := ⟨.hbm, 72, rfl⟩
abbrev main_v48 : Ref sig .tc := ⟨.hbm, 73, rfl⟩
abbrev main_c_6 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_7 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_8 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_9 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_call1_v0 : Ref sig .tc := ⟨.hbm, 105, rfl⟩
abbrev main_call1_cst : Ref sig .tc := ⟨.hbm, 106, rfl⟩
abbrev main_call1_v1 : Ref sig .tc := ⟨.hbm, 107, rfl⟩
abbrev main_call1_v2 : Ref sig .tc := ⟨.hbm, 108, rfl⟩
abbrev main_v76 : Ref sig .tc := ⟨.hbm, 109, rfl⟩
abbrev main_cst_10 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S600000x1_S600000x256_0_1 : S600000x1.BroadcastsInDim S600000x256 (![0, 1] : Fin 2 → Fin S600000x256.rank)
  bcast_S_S50000x256 : S_.BroadcastsInDim S50000x256 (![] : Fin 0 → Fin S50000x256.rank)
  transposes_S256x256_S256x256_1_0 : S256x256.Transposes [1, 0] S256x256
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  One node's row of a two-layer GraphSAGE network, over the extended reals.

  A layer takes a node's aggregated neighbour row a and its own row x (both of length K) and two weight matrices
  Wl, Wr (N rows of length K) and a bias bl (length N). Its linear part is
      lin j = (Σₖ a k · Wl j k + bl j) + Σₖ x k · Wr j k ,
  and the row is then divided by its Euclidean norm, kept away from zero by a floor ε:
      normed j = lin j / max (√(Σⱼ' lin j'²)) ε .
  The hidden layer adds a skip connection through a third matrix Ws with bias bs and applies tanh;
  the output layer applies tanh and then a last linear map Wo with bias bo.

  Every function here is a function of ONE node's rows only: the networks' row locality is what lets a program that
  computes 2000 rows at a time and a program that computes all 50000 at once be compared row by row.
-/
import Idealize.ShloMosaic.PureOps.Ideal

noncomputable section

namespace Cert.Sage

open Idealize.ShloMosaic

/-- The floor under a row norm: the single-precision number nearest 10⁻¹², the same word in both programs. -/
def eps : EReal := Ideal.ofBits .f32 0x2B8CBCCC#32

variable {K N : ℕ}

/-- The linear part of a layer at output channel j. -/
def lin (a x : Fin K → EReal) (Wl Wr : Fin N → Fin K → EReal) (bl : Fin N → EReal) (j : Fin N) : EReal :=
  ((∑ k : Fin K, a k * Wl j k) + bl j) + ∑ k : Fin K, x k * Wr j k

/-- The row's Euclidean norm, floored at ε. -/
def nrm (a x : Fin K → EReal) (Wl Wr : Fin N → Fin K → EReal) (bl : Fin N → EReal) : EReal :=
  max (Ideal.sqrt (∑ j : Fin N, lin a x Wl Wr bl j * lin a x Wl Wr bl j)) eps

/-- The normalised linear part at channel j. -/
def normed (a x : Fin K → EReal) (Wl Wr : Fin N → Fin K → EReal) (bl : Fin N → EReal) (j : Fin N) : EReal :=
  Ideal.div (lin a x Wl Wr bl j) (nrm a x Wl Wr bl)

/-- The hidden layer's row: tanh of the normalised linear part plus the skip connection x · Wsᵀ + bs. -/
def hid (a x : Fin K → EReal) (Wl Wr Ws : Fin N → Fin K → EReal) (bl bs : Fin N → EReal) (j : Fin N) : EReal :=
  Ideal.tanh (normed a x Wl Wr bl j + ((∑ k : Fin K, x k * Ws j k) + bs j))

/-- The output layer's row: the last linear map Wo, bo applied to tanh of the normalised linear part. -/
def outp {P : ℕ} (a h : Fin K → EReal) (Wl Wr : Fin N → Fin K → EReal) (bl : Fin N → EReal)
    (Wo : Fin P → Fin N → EReal) (bo : Fin P → EReal) (j : Fin P) : EReal :=
  (∑ k : Fin N, Ideal.tanh (normed a h Wl Wr bl k) * Wo j k) + bo j

end Cert.Sage

end
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.TileRow.lean ====
/-
  A tile of M node rows through one GraphSAGE layer, read at an entry (p, q) over the extended reals.

  The tile's operations are the ones a vector unit and a matrix unit offer: a product into a zero accumulator with the
  weight matrix transposed, a bias row spread over the tile's rows, a row sum kept as a column, a square root, a
  maximum, a division by a column spread along the rows, tanh. Read at (p, q) each of them only ever looks at row p
  of the tile's inputs, and the result is the row function of Spec.lean at channel q. A change of float format is the
  identity on the extended reals, so the operands may carry any formats.
-/
import proofs.«135690_j37778532336373_1_alg».proof.Proof.Spec
import proofs.«135690_j37778532336373_1_alg».proof.Proof.LibTile
import proofs.«135690_j37778532336373_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Tile

open Idealize.ShloMosaic Idealize.ShloMosaic.ValueIdx

variable {M K N : ℕ}

/-- X · Wᵀ + b at (p, q): the sum over k of X (p, k) · W (q, k), plus b q. -/
theorem dense_apply {φ₁ φ₂ : FTy} (prec : Option ContractPrecision)
    (X : FVec Ideal ⟨2, ![M, K]⟩ φ₁) (W : FVec Ideal ⟨2, ![N, K]⟩ φ₂) (b : FVec Ideal ⟨2, ![1, N]⟩ .f32)
    (ht : (⟨2, ![N, K]⟩ : Shape).Transposes [1, 0] ⟨2, ![K, N]⟩)
    (hb : (⟨2, ![1, N]⟩ : Shape).Broadcasts ⟨2, ![M, N]⟩) (p : Fin M) (q : Fin N) :
    addf (matmul (F := Ideal) (DotDims.plain M K N) prec X (transpose ⟨2, ![K, N]⟩ [1, 0] W ht)
            (constant (F := Ideal) ⟨2, ![M, N]⟩ .f32 0x00000000#32))
         (broadcastTo ⟨2, ![M, N]⟩ b hb) (ix2 p q)
      = (∑ k : Fin K, X (ix2 p k) * W (ix2 q k)) + b (ix2 (0 : Fin 1) q) :=
  congrArg₂ (· + ·)
    ((Cert.PlainProduct.matmul_zero_apply prec X _ p q).trans
      (Finset.sum_congr rfl fun k _ => congrArg (X (ix2 p k) * ·) (transpose_ix2_apply W ht k q)))
    (broadcastTo_1b_ab_apply b hb p q)

/-- X · Wᵀ at (p, q). -/
theorem prodT_apply {φ₁ φ₂ : FTy} (prec : Option ContractPrecision)
    (X : FVec Ideal ⟨2, ![M, K]⟩ φ₁) (W : FVec Ideal ⟨2, ![N, K]⟩ φ₂)
    (ht : (⟨2, ![N, K]⟩ : Shape).Transposes [1, 0] ⟨2, ![K, N]⟩) (p : Fin M) (q : Fin N) :
    matmul (F := Ideal) (DotDims.plain M K N) prec X (transpose ⟨2, ![K, N]⟩ [1, 0] W ht)
            (constant (F := Ideal) ⟨2, ![M, N]⟩ .f32 0x00000000#32) (ix2 p q)
      = ∑ k : Fin K, X (ix2 p k) * W (ix2 q k) :=
  (Cert.PlainProduct.matmul_zero_apply prec X _ p q).trans
    (Finset.sum_congr rfl fun k _ => congrArg (X (ix2 p k) * ·) (transpose_ix2_apply W ht k q))

/-- The layer's linear part (A · Wlᵀ + bl) + X · Wrᵀ at (p, q) is the row function lin of row p. -/
theorem lin_apply {φ₁ φ₂ φ₃ φ₄ : FTy} (prec : Option ContractPrecision)
    (A : FVec Ideal ⟨2, ![M, K]⟩ φ₁) (Wl : FVec Ideal ⟨2, ![N, K]⟩ φ₂)
    (X : FVec Ideal ⟨2, ![M, K]⟩ φ₃) (Wr : FVec Ideal ⟨2, ![N, K]⟩ φ₄) (bl : FVec Ideal ⟨2, ![1, N]⟩ .f32)
    (ht : (⟨2, ![N, K]⟩ : Shape).Transposes [1, 0] ⟨2, ![K, N]⟩)
    (hb : (⟨2, ![1, N]⟩ : Shape).Broadcasts ⟨2, ![M, N]⟩) (p : Fin M) (q : Fin N) :
    addf (addf (matmul (F := Ideal) (DotDims.plain M K N) prec A (transpose ⟨2, ![K, N]⟩ [1, 0] Wl ht)
                  (constant (F := Ideal) ⟨2, ![M, N]⟩ .f32 0x00000000#32))
               (broadcastTo ⟨2, ![M, N]⟩ bl hb))
         (matmul (F := Ideal) (DotDims.plain M K N) prec X (transpose ⟨2, ![K, N]⟩ [1, 0] Wr ht)
                  (constant (F := Ideal) ⟨2, ![M, N]⟩ .f32 0x00000000#32)) (ix2 p q)
      = Cert.Sage.lin (fun k => A (ix2 p k)) (fun k => X (ix2 p k)) (fun j k => Wl (ix2 j k)) (fun j k => Wr (ix2 j k))
          (fun j => bl (ix2 (0 : Fin 1) j)) q :=
  congrArg₂ (· + ·) (dense_apply prec A Wl bl ht hb p q) (prodT_apply prec X Wr ht p q)

/-- A tile Y whose row p is the function L, divided by its row norms floored at ε: at (p, q) it is
    L q / max (√(Σⱼ L j²)) ε. -/
theorem normed_apply (Y : FVec Ideal ⟨2, ![M, N]⟩ .f32) (p : Fin M) (L : Fin N → EReal)
    (hY : ∀ j : Fin N, Y (ix2 p j) = L j)
    (h : Shape.Reduces ⟨2, ![M, N]⟩ [1] ⟨1, ![M]⟩) (hφ : FKind.Formats .f32)
    (hacc : (0x00000000#32 : BitVec 32) = 0x00000000#32)
    (hc : (⟨1, ![M]⟩ : Shape).ShapeCasts ⟨2, ![M, 1]⟩)
    (hb : (⟨2, ![M, 1]⟩ : Shape).Broadcasts ⟨2, ![M, N]⟩) (q : Fin N) :
    divf Y (broadcastTo ⟨2, ![M, N]⟩
        (maximumf
          (sqrt (shapeCast ⟨2, ![M, 1]⟩ (multiReduction (F := Ideal) .add [1] ⟨1, ![M]⟩ (mulf Y Y) 0x00000000#32 h hφ hacc) hc))
          (broadcast ⟨2, ![M, 1]⟩ (Scalar.ofBits (F := Ideal) .f32 0x2B8CBCCC#32)))
        hb) (ix2 p q)
      = Ideal.div (L q) (max (Ideal.sqrt (∑ j : Fin N, L j * L j)) Cert.Sage.eps) :=
  congrArg₂ Ideal.div (hY q)
    ((Cert.Tile.broadcastTo_a1_ab_apply _ hb p q).trans
      (congrArg₂ max
        (congrArg Ideal.sqrt
          ((Cert.Tile.rowSumCol_apply (mulf Y Y) h hφ hacc hc p 0).trans
            (Finset.sum_congr rfl fun j _ => congrArg₂ (· * ·) (hY j) (hY j))))
        rfl))

end Cert.Sage.Tile

end
-- ==== Proof.KHidden.lean ====
/-
  What the first pallas_call leaves in its result array: the hidden layer of every node.

  A grid point t works on node rows 2000·t … 2000·t + 1999: it reads that block of rows of the aggregated features
  and of the node features, and the whole weight matrices and bias rows, and writes the same block of rows of the
  result. Row p of the block the body leaves is the hidden layer's row function (Spec.lean) of row p of the two
  input blocks, so the block is a block of ONE whole-array function of the arrays the region was entered with;
  the 25 blocks tile the 50000 rows, hence the result array ends holding that function.
-/
import proofs.«135690_j37778532336373_1_alg».proof.Proof.KernelIdealFrame
import proofs.«135690_j37778532336373_1_alg».proof.Proof.TileRow
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hidden

open Cert.KernelIdeal Cert.KernelIdeal.Gen Cert.KernelIdeal.GenP

theorem hz : (![0, 0] : Fin 2 → Nat) = fun _ => 0 := funext fun a => by fin_cases a <;> rfl

/-- The body's stored value at (p, q): the hidden row function of row p of the two row blocks, at channel q. -/
theorem pay_at (v0 v3 : Vec Ideal S2000x128 .f32) (v5 v7 v9 : Vec Ideal S256x128 .f32) (v13 v30 : Vec Ideal S1x256 .f32)
    (p : Fin 2000) (q : Fin 256) :
    k0_pay1 (F := Ideal) v0 v3 v5 v7 v9 v13 v30 (ix2 p q)
      = Cert.Sage.hid (fun k => v0 (ix2 p k)) (fun k => v3 (ix2 p k)) (fun j k => v5 (ix2 j k)) (fun j k => v7 (ix2 j k))
          (fun j k => v9 (ix2 j k)) (fun j => v13 (ix2 (0 : Fin 1) j)) (fun j => v30 (ix2 (0 : Fin 1) j)) q := by
  unfold k0_pay1
  simp only [shapeCast_self]
  refine congrArg Ideal.tanh (congrArg₂ (· + ·) ?_ ?_)
  · exact Cert.Sage.Tile.normed_apply _ p _
      (fun j => Cert.Sage.Tile.lin_apply none _ _ _ _ v13 _ _ p j) _ _ _ _ _ q
  · exact Cert.Sage.Tile.dense_apply none _ _ v30 _ _ p q

/-- The block the body leaves in the result window, at (p, q). -/
theorem out_at (x0 x1 : Vec Ideal S2000x128 .f32) (x2 : Vec Ideal S256x128 .f32) (x3 : Vec Ideal S1x256 .f32)
    (x4 x5 : Vec Ideal S256x128 .f32) (x6 : Vec Ideal S1x256 .f32) (p : Fin 2000) (q : Fin 256) :
    out0_7 (F := Ideal) x0 x1 x2 x3 x4 x5 x6 (ix2 p q)
      = Cert.Sage.hid (fun k => x0 (ix2 p k)) (fun k => x1 (ix2 p k)) (fun j k => x2 (ix2 j k)) (fun j k => x4 (ix2 j k))
          (fun j k => x5 (ix2 j k)) (fun j => x3 (ix2 (0 : Fin 1) j)) (fun j => x6 (ix2 (0 : Fin 1) j)) q := by
  unfold out0_7
  rw [View.canon_unit_zero hz]
  simp only [View.ld_unit_zero (S := S2000x128) hz, View.ld_unit_zero (S := S256x128) hz, View.ld_unit_zero (S := S1x256) hz]
  exact pay_at x0 x1 x2 x4 x5 x3 x6 p q

variable (V : (c : Dev nD) → (b : Ref sig .tc) → Buf (Elt Ideal) ((c : Thread nD τ).loc b))

/-- The hidden layer of every node as one array: entry (r, j) is the hidden row function of node r's rows of the
    aggregated features A0 and of the node features A1, under the weights A2, A4, A5 and the bias rows A3, A6. -/
def H (A0 A1 : FVec Ideal S50000x128 .f32) (A2 : FVec Ideal S256x128 .f32) (A3 : FVec Ideal S1x256 .f32)
    (A4 A5 : FVec Ideal S256x128 .f32) (A6 : FVec Ideal S1x256 .f32) : FVec Ideal S50000x256 .f32 :=
  fun i => Cert.Sage.hid (fun k => A0 (ix2 (⟨(i 0).val, idx2_lt0 i⟩ : Fin 50000) k))
    (fun k => A1 (ix2 (⟨(i 0).val, idx2_lt0 i⟩ : Fin 50000) k)) (fun j k => A2 (ix2 j k)) (fun j k => A4 (ix2 j k))
    (fun j k => A5 (ix2 j k)) (fun j => A3 (ix2 (0 : Fin 1) j)) (fun j => A6 (ix2 (0 : Fin 1) j))
    (⟨(i 1).val, idx2_lt1 i⟩ : Fin 256)

theorem H_at (A0 A1 : FVec Ideal S50000x128 .f32) (A2 : FVec Ideal S256x128 .f32) (A3 : FVec Ideal S1x256 .f32)
    (A4 A5 : FVec Ideal S256x128 .f32) (A6 : FVec Ideal S1x256 .f32) (r : Fin 50000) (q : Fin 256) :
    H A0 A1 A2 A3 A4 A5 A6 (ix2 r q)
      = Cert.Sage.hid (fun k => A0 (ix2 r k)) (fun k => A1 (ix2 r k)) (fun j k => A2 (ix2 j k)) (fun j k => A4 (ix2 j k))
          (fun j k => A5 (ix2 j k)) (fun j => A3 (ix2 (0 : Fin 1) j)) (fun j => A6 (ix2 (0 : Fin 1) j)) q := rfl

/-- The printed index maps, decided over the 25 grid points: the two row-block inputs and the result move together,
    block t on the row axis; the weights and bias rows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Block t of the aggregated features, at (p, k): the array at row 2000·t + p. -/
theorem rows0 (c : Dev nD) (t : Fin cfg0.N) (p : Fin 2000) (k : Fin 128) (r : Fin 50000) (hr : r.val = t.val * 2000 + p.val) :
    (iblk0 V c 0 t : Vec Ideal S2000x128 .f32) (ix2 p k) = (V c main_v22 : FVec Ideal S50000x128 .f32) (ix2 r k) := by
  unfold iblk0
  rw [View.read_apply]
  show V c main_v22 _ = V c main_v22 _
  congr 1
  funext a
  apply Fin.ext
  match a with
  | ⟨0, _⟩ => show win0_0.index t (0 : Fin 2) * 2000 + 1 * p.val = r.val; rw [(idx_facts t).1, hr]; omega
  | ⟨1, _⟩ => show win0_0.index t (1 : Fin 2) * 128 + 1 * k.val = k.val; rw [(idx_facts t).2.1]; omega

/-- Block t of the node features, at (p, k): the array at row 2000·t + p. -/
theorem rows1 (c : Dev nD) (t : Fin cfg0.N) (p : Fin 2000) (k : Fin 128) (r : Fin 50000) (hr : r.val = t.val * 2000 + p.val) :
    (iblk0 V c 1 t : Vec Ideal S2000x128 .f32) (ix2 p k) = (V c main_arg0 : FVec Ideal S50000x128 .f32) (ix2 r k) := by
  unfold iblk0
  rw [View.read_apply]
  show V c main_arg0 _ = V c main_arg0 _
  congr 1
  funext a
  apply Fin.ext
  match a with
  | ⟨0, _⟩ => show win0_1.index t (0 : Fin 2) * 2000 + 1 * p.val = r.val; rw [(idx_facts t).2.2.1, hr]; omega
  | ⟨1, _⟩ => show win0_1.index t (1 : Fin 2) * 128 + 1 * k.val = k.val; rw [(idx_facts t).2.2.2.1]; omega

/-- The three weight windows hold their whole matrices at every point. -/
theorem whole2 (c : Dev nD) (t : Fin cfg0.N) (j : Fin 256) (k : Fin 128) :
    (iblk0 V c 2 t : Vec Ideal S256x128 .f32) (ix2 j k) = (V c main_arg3 : FVec Ideal S256x128 .f32) (ix2 j k) := by
  obtain ⟨-, -, -, -, e0, e1, -⟩ := idx_facts t
  unfold iblk0
  rw [View.read_apply]
  show V c main_arg3 _ = V c main_arg3 _
  congr 1
  funext a
  apply Fin.ext
  match a with
  | ⟨0, _⟩ => show win0_2.index t (0 : Fin 2) * 256 + 1 * j.val = j.val; rw [e0]; omega
  | ⟨1, _⟩ => show win0_2.index t (1 : Fin 2) * 128 + 1 * k.val = k.val; rw [e1]; omega

theorem whole4 (c : Dev nD) (t : Fin cfg0.N) (j : Fin 256) (k : Fin 128) :
    (iblk0 V c 4 t : Vec Ideal S256x128 .f32) (ix2 j k) = (V c main_arg5 : FVec Ideal S256x128 .f32) (ix2 j k) := by
  obtain ⟨-, -, -, -, -, -, -, -, e0, e1, -⟩ := idx_facts t
  unfold iblk0
  rw [View.read_apply]
  show V c main_arg5 _ = V c main_arg5 _
  congr 1
  funext a
  apply Fin.ext
  match a with
  | ⟨0, _⟩ => show win0_4.index t (0 : Fin 2) * 256 + 1 * j.val = j.val; rw [e0]; omega
  | ⟨1, _⟩ => show win0_4.index t (1 : Fin 2) * 128 + 1 * k.val = k.val; rw [e1]; omega

theorem whole5 (c : Dev nD) (t : Fin cfg0.N) (j : Fin 256) (k : Fin 128) :
    (iblk0 V c 5 t : Vec Ideal S256x128 .f32) (ix2 j k) = (V c main_arg6 : FVec Ideal S256x128 .f32) (ix2 j k) := by
  obtain ⟨-, -, -, -, -, -, -, -, -, -, e0, e1, -⟩ := idx_facts t
  unfold iblk0
  rw [View.read_apply]
  show V c main_arg6 _ = V c main_arg6 _
  congr 1
  funext a
  apply Fin.ext
  match a with
  | ⟨0, _⟩ => show win0_5.index t (0 : Fin 2) * 256 + 1 * j.val = j.val; rw [e0]; omega
  | ⟨1, _⟩ => show win0_5.index t (1 : Fin 2) * 128 + 1 * k.val = k.val; rw [e1]; omega

/-- The two bias windows hold their whole rows at every point. -/
theorem whole3 (c : Dev nD) (t : Fin cfg0.N) (u : Fin 1) (j : Fin 256) :
    (iblk0 V c 3 t : Vec Ideal S1x256 .f32) (ix2 u j) = (V c main_v23 : FVec Ideal S1x256 .f32) (ix2 u j) := by
  obtain ⟨-, -, -, -, -, -, e0, e1, -⟩ := idx_facts t
  unfold iblk0
  rw [View.read_apply]
  show V c main_v23 _ = V c main_v23 _
  congr 1
  funext a
  apply Fin.ext
  match a with
  | ⟨0, _⟩ => show win0_3.index t (0 : Fin 2) * 1 + 1 * u.val = u.val; rw [e0]; omega
  | ⟨1, _⟩ => show win0_3.index t (1 : Fin 2) * 256 + 1 * j.val = j.val; rw [e1]; omega

theorem whole6 (c : Dev nD) (t : Fin cfg0.N) (u : Fin 1) (j : Fin 256) :
    (iblk0 V c 6 t : Vec Ideal S1x256 .f32) (ix2 u j) = (V c main_v24 : FVec Ideal S1x256 .f32) (ix2 u j) := by
  obtain ⟨-, -, -, -, -, -, -, -, -, -, -, -, e0, e1, -⟩ := idx_facts t
  unfold iblk0
  rw [View.read_apply]
  show V c main_v24 _ = V c main_v24 _
  congr 1
  funext a
  apply Fin.ext
  match a with
  | ⟨0, _⟩ => show win0_6.index t (0 : Fin 2) * 1 + 1 * u.val = u.val; rw [e0]; omega
  | ⟨1, _⟩ => show win0_6.index t (1 : Fin 2) * 256 + 1 * j.val = j.val; rw [e1]; omega

/-- What point t writes back is block t of the hidden layer of the arrays the region was entered with. -/
theorem flushed_eq (c : Dev nD) (t : Fin cfg0.N) :
    (dat0 (F := Ideal) V c).flushed 7 t = ((cfg0.win 7).blk t).view.read (Elt Ideal)
      (H (V c main_v22) (V c main_arg0) (V c main_arg3) (V c main_v23) (V c main_arg5) (V c main_arg6) (V c main_v24)) := by
  show (cfg0.win 7).cut (grid0.coords t) ((dat0 V c).after 7 t) = _
  rw [after0_7]
  funext y
  revert y
  show ∀ y : S2000x256.Idx, out0_7 (iblk0 V c 0 t) (iblk0 V c 1 t) (iblk0 V c 2 t) (iblk0 V c 3 t) (iblk0 V c 4 t) (iblk0 V c 5 t) (iblk0 V c 6 t) y
      = H (V c main_v22) (V c main_arg0) (V c main_arg3) (V c main_v23) (V c main_arg5) (V c main_arg6) (V c main_v24)
          (((cfg0.win 7).blk t).view.emb y)
  intro y
  obtain ⟨p, q, rfl⟩ : ∃ (p : Fin 2000) (q : Fin 256), y = ix2 p q := ⟨y 0, y 1, eq_ix2 y⟩
  have ht : t.val < 25 := by have h := t.isLt; have hN : cfg0.N = 25 := N_0; omega
  have hp : p.val < 2000 := p.isLt
  obtain ⟨-, -, -, -, -, -, -, -, -, -, -, -, -, -, e7a, e7b⟩ := idx_facts t
  have he : ((cfg0.win 7).blk t).view.emb (ix2 p q) = ix2 (⟨t.val * 2000 + p.val, by omega⟩ : Fin 50000) q := by
    funext a
    apply Fin.ext
    match a with
    | ⟨0, _⟩ => show win0_7.index t (0 : Fin 2) * 2000 + 1 * p.val = t.val * 2000 + p.val; rw [e7a]; omega
    | ⟨1, _⟩ => show win0_7.index t (1 : Fin 2) * 256 + 1 * q.val = q.val; rw [e7b]; omega
  rw [he, H_at, out_at]
  have e0 : (fun k : Fin 128 => (iblk0 V c 0 t : Vec Ideal S2000x128 .f32) (ix2 p k))
      = fun k => (V c main_v22 : FVec Ideal S50000x128 .f32) (ix2 (⟨t.val * 2000 + p.val, by omega⟩ : Fin 50000) k) :=
    funext fun k => rows0 V c t p k _ rfl
  have e1 : (fun k : Fin 128 => (iblk0 V c 1 t : Vec Ideal S2000x128 .f32) (ix2 p k))
      = fun k => (V c main_arg0 : FVec Ideal S50000x128 .f32) (ix2 (⟨t.val * 2000 + p.val, by omega⟩ : Fin 50000) k) :=
    funext fun k => rows1 V c t p k _ rfl
  have e2 : (fun (j : Fin 256) (k : Fin 128) => (iblk0 V c 2 t : Vec Ideal S256x128 .f32) (ix2 j k))
      = fun j k => (V c main_arg3 : FVec Ideal S256x128 .f32) (ix2 j k) := funext fun j => funext fun k => whole2 V c t j k
  have e4 : (fun (j : Fin 256) (k : Fin 128) => (iblk0 V c 4 t : Vec Ideal S256x128 .f32) (ix2 j k))
      = fun j k => (V c main_arg5 : FVec Ideal S256x128 .f32) (ix2 j k) := funext fun j => funext fun k => whole4 V c t j k
  have e5 : (fun (j : Fin 256) (k : Fin 128) => (iblk0 V c 5 t : Vec Ideal S256x128 .f32) (ix2 j k))
      = fun j k => (V c main_arg6 : FVec Ideal S256x128 .f32) (ix2 j k) := funext fun j => funext fun k => whole5 V c t j k
  have e3 : (fun j : Fin 256 => (iblk0 V c 3 t : Vec Ideal S1x256 .f32) (ix2 (0 : Fin 1) j))
      = fun j => (V c main_v23 : FVec Ideal S1x256 .f32) (ix2 (0 : Fin 1) j) := funext fun j => whole3 V c t 0 j
  have e6 : (fun j : Fin 256 => (iblk0 V c 6 t : Vec Ideal S1x256 .f32) (ix2 (0 : Fin 1) j))
      = fun j => (V c main_v24 : FVec Ideal S1x256 .f32) (ix2 (0 : Fin 1) j) := funext fun j => whole6 V c t 0 j
  rw [e0, e1, e2, e4, e5, e3, e6]

/-- An index of the result array is in point t's block iff its row is among the block's 2000 rows. -/
theorem mem_blk (t : Fin cfg0.N) (i : S50000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v25).slice (win0_7.rect t)).set ↔ _
  rw [View.set_slice_whole, Rect.mem_set_unit]
  exact Iff.rfl

/-- The result array after the region: the hidden layer of the arrays the region was entered with. Row r lies in
    the block of point r / 2000, so the 25 blocks cover the array. -/
theorem final (c : Dev nD) :
    (dat0 (F := Ideal) V c).arrAt 7 cfg0.N
      = H (V c main_v22) (V c main_arg0) (V c main_arg3) (V c main_v23) (V c main_arg5) (V c main_arg6) (V c main_v24) :=
  (dat0 (F := Ideal) V c).arrAt_eq_of_cover 7 _ (fun t _ => flushed_eq V c t) fun i => by
    have hi0 : (i 0).val < 50000 := (i 0).isLt
    have hi1 : (i 1).val < 256 := (i 1).isLt
    have hN : cfg0.N = 25 := N_0
    refine ⟨⟨(i 0).val / 2000, by rw [hN]; omega⟩, flush0_7 _, ?_⟩
    obtain ⟨-, -, -, -, -, -, -, -, -, -, -, -, -, -, e7a, e7b⟩ := idx_facts ⟨(i 0).val / 2000, by rw [hN]; omega⟩
    rw [mem_blk]
    intro a
    match a with
    | ⟨0, _⟩ =>
      show win0_7.index ⟨(i 0).val / 2000, _⟩ (0 : Fin 2) * 2000 ≤ (i 0).val ∧ (i 0).val < win0_7.index ⟨(i 0).val / 2000, _⟩ (0 : Fin 2) * 2000 + 2000
      rw [e7a]
      show (i 0).val / 2000 * 2000 ≤ (i 0).val ∧ (i 0).val < (i 0).val / 2000 * 2000 + 2000
      omega
    | ⟨1, _⟩ =>
      show win0_7.index ⟨(i 0).val / 2000, _⟩ (1 : Fin 2) * 256 ≤ (i 1).val ∧ (i 1).val < win0_7.index ⟨(i 0).val / 2000, _⟩ (1 : Fin 2) * 256 + 256
      rw [e7b]
      omega

end Cert.KernelIdeal.Hidden

end
-- ==== Proof.KOutput.lean ====
/-
  What the second pallas_call leaves in its result array: the network's output for every node.

  A grid point t works on node rows 2000·t … 2000·t + 1999: it reads that block of rows of the second aggregation
  and of the hidden layer, and the whole weight matrices and bias rows, and writes the same block of rows of the
  result. Row p of the block the body leaves is the output row function (Spec.lean) of row p of the two input blocks;
  the 25 blocks tile the 50000 rows, hence the result array ends holding one whole-array function of the arrays the
  region was entered with.
-/
import proofs.«135690_j37778532336373_1_alg».proof.Proof.KernelIdealFrame
import proofs.«135690_j37778532336373_1_alg».proof.Proof.TileRow
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen Cert.KernelIdeal.GenP

theorem hz : (![0, 0] : Fin 2 → Nat) = fun _ => 0 := funext fun a => by fin_cases a <;> rfl

/-- The body's stored value at (p, q): the output row function of row p of the two row blocks, at channel q. -/
theorem pay_at (v0 v3 : Vec Ideal S2000x256 .f32) (v6 v8 : Vec Ideal S256x256 .f32) (v10 : Vec Ideal S128x256 .f32)
    (v14 : Vec Ideal S1x256 .f32) (v33 : Vec Ideal S1x128 .f32) (p : Fin 2000) (q : Fin 128) :
    k1_pay1 (F := Ideal) v0 v3 v6 v8 v10 v14 v33 (ix2 p q)
      = Cert.Sage.outp (fun k => v0 (ix2 p k)) (fun k => v3 (ix2 p k)) (fun j k => v6 (ix2 j k)) (fun j k => v8 (ix2 j k))
          (fun j => v14 (ix2 (0 : Fin 1) j)) (fun j k => v10 (ix2 j k)) (fun j => v33 (ix2 (0 : Fin 1) j)) q := by
  unfold k1_pay1
  simp only [shapeCast_self]
  refine (Cert.Sage.Tile.dense_apply none _ _ v33 _ _ p q).trans ?_
  refine congrArg₂ (· + ·) (Finset.sum_congr rfl fun k _ => congrArg₂ (· * ·) (congrArg Ideal.tanh ?_) rfl) rfl
  exact Cert.Sage.Tile.normed_apply _ p _
    (fun j => Cert.Sage.Tile.lin_apply none _ _ _ _ v14 _ _ p j) _ _ _ _ _ k

/-- The block the body leaves in the result window, at (p, q). -/
theorem out_at (x0 x1 : Vec Ideal S2000x256 .f32) (x2 : Vec Ideal S256x256 .f32) (x3 : Vec Ideal S1x256 .f32)
    (x4 : Vec Ideal S256x256 .f32) (x5 : Vec Ideal S128x256 .f32) (x6 : Vec Ideal S1x128 .f32) (p : Fin 2000) (q : Fin 128) :
    out1_7 (F := Ideal) x0 x1 x2 x3 x4 x5 x6 (ix2 p q)
      = Cert.Sage.outp (fun k => x0 (ix2 p k)) (fun k => x1 (ix2 p k)) (fun j k => x2 (ix2 j k)) (fun j k => x4 (ix2 j k))
          (fun j => x3 (ix2 (0 : Fin 1) j)) (fun j k => x5 (ix2 j k)) (fun j => x6 (ix2 (0 : Fin 1) j)) q := by
  unfold out1_7
  rw [View.canon_unit_zero hz]
  simp only [View.ld_unit_zero (S := S2000x256) hz, View.ld_unit_zero (S := S256x256) hz, View.ld_unit_zero (S := S128x256) hz,
    View.ld_unit_zero (S := S1x256) hz, View.ld_unit_zero (S := S1x128) hz]
  exact pay_at x0 x1 x2 x4 x5 x3 x6 p q

variable (V : (c : Dev nD) → (b : Ref sig .tc) → Buf (Elt Ideal) ((c : Thread nD τ).loc b))

/-- The network's output for every node as one array: entry (r, j) is the output row function of node r's rows of the
    second aggregation A0 and of the hidden layer A1, under the weights A2, A4, A5 and the bias rows A3, A6. -/
def O (A0 A1 : FVec Ideal S50000x256 .f32) (A2 : FVec Ideal S256x256 .f32) (A3 : FVec Ideal S1x256 .f32)
    (A4 : FVec Ideal S256x256 .f32) (A5 : FVec Ideal S128x256 .f32) (A6 : FVec Ideal S1x128 .f32) : FVec Ideal S50000x128 .f32 :=
  fun i => Cert.Sage.outp (fun k => A0 (ix2 (⟨(i 0).val, idx2_lt0 i⟩ : Fin 50000) k))
    (fun k => A1 (ix2 (⟨(i 0).val, idx2_lt0 i⟩ : Fin 50000) k)) (fun j k => A2 (ix2 j k)) (fun j k => A4 (ix2 j k))
    (fun j => A3 (ix2 (0 : Fin 1) j)) (fun j k => A5 (ix2 j k)) (fun j => A6 (ix2 (0 : Fin 1) j))
    (⟨(i 1).val, idx2_lt1 i⟩ : Fin 128)

theorem O_at (A0 A1 : FVec Ideal S50000x256 .f32) (A2 : FVec Ideal S256x256 .f32) (A3 : FVec Ideal S1x256 .f32)
    (A4 : FVec Ideal S256x256 .f32) (A5 : FVec Ideal S128x256 .f32) (A6 : FVec Ideal S1x128 .f32) (r : Fin 50000) (q : Fin 128) :
    O A0 A1 A2 A3 A4 A5 A6 (ix2 r q)
      = Cert.Sage.outp (fun k => A0 (ix2 r k)) (fun k => A1 (ix2 r k)) (fun j k => A2 (ix2 j k)) (fun j k => A4 (ix2 j k))
          (fun j => A3 (ix2 (0 : Fin 1) j)) (fun j k => A5 (ix2 j k)) (fun j => A6 (ix2 (0 : Fin 1) j)) q := rfl

/-- The printed index maps, decided over the 25 grid points: the two row-block inputs and the result move together,
    block t on the row axis; the weights and bias rows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Block t of the second aggregation, at (p, k): the array at row 2000·t + p. -/
theorem rows0 (c : Dev nD) (t : Fin cfg1.N) (p : Fin 2000) (k : Fin 256) (r : Fin 50000) (hr : r.val = t.val * 2000 + p.val) :
    (iblk1 V c 0 t : Vec Ideal S2000x256 .f32) (ix2 p k) = (V c main_v47 : FVec Ideal S50000x256 .f32) (ix2 r k) := by
  unfold iblk1
  rw [View.read_apply]
  show V c main_v47 _ = V c main_v47 _
  congr 1
  funext a
  apply Fin.ext
  match a with
  | ⟨0, _⟩ => show win1_0.index t (0 : Fin 2) * 2000 + 1 * p.val = r.val; rw [(idx_facts t).1, hr]; omega
  | ⟨1, _⟩ => show win1_0.index t (1 : Fin 2) * 256 + 1 * k.val = k.val; rw [(idx_facts t).2.1]; omega

/-- Block t of the hidden layer, at (p, k): the array at row 2000·t + p. -/
theorem rows1 (c : Dev nD) (t : Fin cfg1.N) (p : Fin 2000) (k : Fin 256) (r : Fin 50000) (hr : r.val = t.val * 2000 + p.val) :
    (iblk1 V c 1 t : Vec Ideal S2000x256 .f32) (ix2 p k) = (V c main_v25 : FVec Ideal S50000x256 .f32) (ix2 r k) := by
  unfold iblk1
  rw [View.read_apply]
  show V c main_v25 _ = V c main_v25 _
  congr 1
  funext a
  apply Fin.ext
  match a with
  | ⟨0, _⟩ => show win1_1.index t (0 : Fin 2) * 2000 + 1 * p.val = r.val; rw [(idx_facts t).2.2.1, hr]; omega
  | ⟨1, _⟩ => show win1_1.index t (1 : Fin 2) * 256 + 1 * k.val = k.val; rw [(idx_facts t).2.2.2.1]; omega

/-- The three weight windows hold their whole matrices at every point. -/
theorem whole2 (c : Dev nD) (t : Fin cfg1.N) (j : Fin 256) (k : Fin 256) :
    (iblk1 V c 2 t : Vec Ideal S256x256 .f32) (ix2 j k) = (V c main_arg8 : FVec Ideal S256x256 .f32) (ix2 j k) := by
  obtain ⟨-, -, -, -, e0, e1, -⟩ := idx_facts t
  unfold iblk1
  rw [View.read_apply]
  show V c main_arg8 _ = V c main_arg8 _
  congr 1
  funext a
  apply Fin.ext
  match a with
  | ⟨0, _⟩ => show win1_2.index t (0 : Fin 2) * 256 + 1 * j.val = j.val; rw [e0]; omega
  | ⟨1, _⟩ => show win1_2.index t (1 : Fin 2) * 256 + 1 * k.val = k.val; rw [e1]; omega

theorem whole4 (c : Dev nD) (t : Fin cfg1.N) (j : Fin 256) (k : Fin 256) :
    (iblk1 V c 4 t : Vec Ideal S256x256 .f32) (ix2 j k) = (V c main_arg10 : FVec Ideal S256x256 .f32) (ix2 j k) := by
  obtain ⟨-, -, -, -, -, -, -, -, e0, e1, -⟩ := idx_facts t
  unfold iblk1
  rw [View.read_apply]
  show V c main_arg10 _ = V c main_arg10 _
  congr 1
  funext a
  apply Fin.ext
  match a with
  | ⟨0, _⟩ => show win1_4.index t (0 : Fin 2) * 256 + 1 * j.val = j.val; rw [e0]; omega
  | ⟨1, _⟩ => show win1_4.index t (1 : Fin 2) * 256 + 1 * k.val = k.val; rw [e1]; omega

theorem whole5 (c : Dev nD) (t : Fin cfg1.N) (j : Fin 128) (k : Fin 256) :
    (iblk1 V c 5 t : Vec Ideal S128x256 .f32) (ix2 j k) = (V c main_arg11 : FVec Ideal S128x256 .f32) (ix2 j k) := by
  obtain ⟨-, -, -, -, -, -, -, -, -, -, e0, e1, -⟩ := idx_facts t
  unfold iblk1
  rw [View.read_apply]
  show V c main_arg11 _ = V c main_arg11 _
  congr 1
  funext a
  apply Fin.ext
  match a with
  | ⟨0, _⟩ => show win1_5.index t (0 : Fin 2) * 128 + 1 * j.val = j.val; rw [e0]; omega
  | ⟨1, _⟩ => show win1_5.index t (1 : Fin 2) * 256 + 1 * k.val = k.val; rw [e1]; omega

/-- The two bias windows hold their whole rows at every point. -/
theorem whole3 (c : Dev nD) (t : Fin cfg1.N) (u : Fin 1) (j : Fin 256) :
    (iblk1 V c 3 t : Vec Ideal S1x256 .f32) (ix2 u j) = (V c main_v48 : FVec Ideal S1x256 .f32) (ix2 u j) := by
  obtain ⟨-, -, -, -, -, -, e0, e1, -⟩ := idx_facts t
  unfold iblk1
  rw [View.read_apply]
  show V c main_v48 _ = V c main_v48 _
  congr 1
  funext a
  apply Fin.ext
  match a with
  | ⟨0, _⟩ => show win1_3.index t (0 : Fin 2) * 1 + 1 * u.val = u.val; rw [e0]; omega
  | ⟨1, _⟩ => show win1_3.index t (1 : Fin 2) * 256 + 1 * j.val = j.val; rw [e1]; omega

theorem whole6 (c : Dev nD) (t : Fin cfg1.N) (u : Fin 1) (j : Fin 128) :
    (iblk1 V c 6 t : Vec Ideal S1x128 .f32) (ix2 u j) = (V c main_v49 : FVec Ideal S1x128 .f32) (ix2 u j) := by
  obtain ⟨-, -, -, -, -, -, -, -, -, -, -, -, e0, e1, -⟩ := idx_facts t
  unfold iblk1
  rw [View.read_apply]
  show V c main_v49 _ = V c main_v49 _
  congr 1
  funext a
  apply Fin.ext
  match a with
  | ⟨0, _⟩ => show win1_6.index t (0 : Fin 2) * 1 + 1 * u.val = u.val; rw [e0]; omega
  | ⟨1, _⟩ => show win1_6.index t (1 : Fin 2) * 128 + 1 * j.val = j.val; rw [e1]; omega

/-- What point t writes back is block t of the output of the arrays the region was entered with. -/
theorem flushed_eq (c : Dev nD) (t : Fin cfg1.N) :
    (dat1 (F := Ideal) V c).flushed 7 t = ((cfg1.win 7).blk t).view.read (Elt Ideal)
      (O (V c main_v47) (V c main_v25) (V c main_arg8) (V c main_v48) (V c main_arg10) (V c main_arg11) (V c main_v49)) := by
  show (cfg1.win 7).cut (grid1.coords t) ((dat1 V c).after 7 t) = _
  rw [after1_7]
  funext y
  revert y
  show ∀ y : S2000x128.Idx, out1_7 (iblk1 V c 0 t) (iblk1 V c 1 t) (iblk1 V c 2 t) (iblk1 V c 3 t) (iblk1 V c 4 t) (iblk1 V c 5 t) (iblk1 V c 6 t) y
      = O (V c main_v47) (V c main_v25) (V c main_arg8) (V c main_v48) (V c main_arg10) (V c main_arg11) (V c main_v49)
          (((cfg1.win 7).blk t).view.emb y)
  intro y
  obtain ⟨p, q, rfl⟩ : ∃ (p : Fin 2000) (q : Fin 128), y = ix2 p q := ⟨y 0, y 1, eq_ix2 y⟩
  have ht : t.val < 25 := by have h := t.isLt; have hN : cfg1.N = 25 := N_1; omega
  have hp : p.val < 2000 := p.isLt
  obtain ⟨-, -, -, -, -, -, -, -, -, -, -, -, -, -, e7a, e7b⟩ := idx_facts t
  have he : ((cfg1.win 7).blk t).view.emb (ix2 p q) = ix2 (⟨t.val * 2000 + p.val, by omega⟩ : Fin 50000) q := by
    funext a
    apply Fin.ext
    match a with
    | ⟨0, _⟩ => show win1_7.index t (0 : Fin 2) * 2000 + 1 * p.val = t.val * 2000 + p.val; rw [e7a]; omega
    | ⟨1, _⟩ => show win1_7.index t (1 : Fin 2) * 128 + 1 * q.val = q.val; rw [e7b]; omega
  rw [he, O_at, out_at]
  have e0 : (fun k : Fin 256 => (iblk1 V c 0 t : Vec Ideal S2000x256 .f32) (ix2 p k))
      = fun k => (V c main_v47 : FVec Ideal S50000x256 .f32) (ix2 (⟨t.val * 2000 + p.val, by omega⟩ : Fin 50000) k) :=
    funext fun k => rows0 V c t p k _ rfl
  have e1 : (fun k : Fin 256 => (iblk1 V c 1 t : Vec Ideal S2000x256 .f32) (ix2 p k))
      = fun k => (V c main_v25 : FVec Ideal S50000x256 .f32) (ix2 (⟨t.val * 2000 + p.val, by omega⟩ : Fin 50000) k) :=
    funext fun k => rows1 V c t p k _ rfl
  have e2 : (fun (j : Fin 256) (k : Fin 256) => (iblk1 V c 2 t : Vec Ideal S256x256 .f32) (ix2 j k))
      = fun j k => (V c main_arg8 : FVec Ideal S256x256 .f32) (ix2 j k) := funext fun j => funext fun k => whole2 V c t j k
  have e4 : (fun (j : Fin 256) (k : Fin 256) => (iblk1 V c 4 t : Vec Ideal S256x256 .f32) (ix2 j k))
      = fun j k => (V c main_arg10 : FVec Ideal S256x256 .f32) (ix2 j k) := funext fun j => funext fun k => whole4 V c t j k
  have e5 : (fun (j : Fin 128) (k : Fin 256) => (iblk1 V c 5 t : Vec Ideal S128x256 .f32) (ix2 j k))
      = fun j k => (V c main_arg11 : FVec Ideal S128x256 .f32) (ix2 j k) := funext fun j => funext fun k => whole5 V c t j k
  have e3 : (fun j : Fin 256 => (iblk1 V c 3 t : Vec Ideal S1x256 .f32) (ix2 (0 : Fin 1) j))
      = fun j => (V c main_v48 : FVec Ideal S1x256 .f32) (ix2 (0 : Fin 1) j) := funext fun j => whole3 V c t 0 j
  have e6 : (fun j : Fin 128 => (iblk1 V c 6 t : Vec Ideal S1x128 .f32) (ix2 (0 : Fin 1) j))
      = fun j => (V c main_v49 : FVec Ideal S1x128 .f32) (ix2 (0 : Fin 1) j) := funext fun j => whole6 V c t 0 j
  rw [e0, e1, e2, e4, e3, e5, e6]

/-- An index of the result array is in point t's block iff its row is among the block's 2000 rows. -/
theorem mem_blk (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v50).slice (win1_7.rect t)).set ↔ _
  rw [View.set_slice_whole, Rect.mem_set_unit]
  exact Iff.rfl

/-- The result array after the region: the output of the arrays the region was entered with. Row r lies in the block
    of point r / 2000, so the 25 blocks cover the array. -/
theorem final (c : Dev nD) :
    (dat1 (F := Ideal) V c).arrAt 7 cfg1.N
      = O (V c main_v47) (V c main_v25) (V c main_arg8) (V c main_v48) (V c main_arg10) (V c main_arg11) (V c main_v49) :=
  (dat1 (F := Ideal) V c).arrAt_eq_of_cover 7 _ (fun t _ => flushed_eq V c t) fun i => by
    have hi0 : (i 0).val < 50000 := (i 0).isLt
    have hi1 : (i 1).val < 128 := (i 1).isLt
    have hN : cfg1.N = 25 := N_1
    refine ⟨⟨(i 0).val / 2000, by rw [hN]; omega⟩, flush1_7 _, ?_⟩
    obtain ⟨-, -, -, -, -, -, -, -, -, -, -, -, -, -, e7a, e7b⟩ := idx_facts ⟨(i 0).val / 2000, by rw [hN]; omega⟩
    rw [mem_blk]
    intro a
    match a with
    | ⟨0, _⟩ =>
      show win1_7.index ⟨(i 0).val / 2000, _⟩ (0 : Fin 2) * 2000 ≤ (i 0).val ∧ (i 0).val < win1_7.index ⟨(i 0).val / 2000, _⟩ (0 : Fin 2) * 2000 + 2000
      rw [e7a]
      show (i 0).val / 2000 * 2000 ≤ (i 0).val ∧ (i 0).val < (i 0).val / 2000 * 2000 + 2000
      omega
    | ⟨1, _⟩ =>
      show win1_7.index ⟨(i 0).val / 2000, _⟩ (1 : Fin 2) * 128 ≤ (i 1).val ∧ (i 1).val < win1_7.index ⟨(i 0).val / 2000, _⟩ (1 : Fin 2) * 128 + 128
      rw [e7b]
      omega

end Cert.KernelIdeal.Output

end
-- ==== Proof.Glue.lean ====
/-
  The graph side of the network as pure functions of arrays: mean aggregation over incoming edges.

  From the edge list e (two rows: sources, destinations) the programs take the source and destination vectors; a
  source index is wrapped as jnp does (s + 50000 where s < 0) and spread as a column of gather indices, a destination is
  spread as a column of scatter indices. The aggregation of node features x is the sum over the edges into each node of
  the source's row (a gather, then an accumulating scatter into zeros), divided by the number of such edges, at least 1.
  The second aggregation weights each edge by a 0/1 mask: rows are multiplied by the edge's weight and the count is the
  sum of the weights. Both host stretches of the kernel's @main, and the same lines of the reference, are these
  functions, at any float instance.
-/
import proofs.«135690_j37778532336373_1_alg».proof.KernelIdeal
import proofs.«135690_j37778532336373_1_alg».proof.Proof.Gen.KernelIdeal

noncomputable section

open Idealize.ShloMosaic Idealize.ShloMosaic.TcCoe

namespace Cert.KernelIdeal.Glue

open Cert.KernelIdeal Cert.KernelIdeal.Facts₀ Cert.KernelIdeal.Facts

variable {F : FTy → Type} [FloatOps F]

/-- Row 0 of the edge list: the sources. -/
def srcOf (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000

/-- Row 1 of the edge list: the destinations. -/
def dstOf (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- The gather's start indices: a negative source wrapped by the number of nodes, as a column. -/
def gatherCol (s : (⟨S600000, .i32⟩ : BufTy).Contents (Elt F)) : (⟨S600000x1, .i32⟩ : BufTy).Contents (Elt F) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- The scatter's indices: the destinations as a column. -/
def scatterCol (d : (⟨S600000, .i32⟩ : BufTy).Contents (Elt F)) : (⟨S600000x1, .i32⟩ : BufTy).Contents (Elt F) :=
  broadcastInDim S600000x1 ![0] bcast_S600000_S600000x1_0 d

/-- Every edge's weight 1. -/
def ones : (⟨S600000, .f32⟩ : BufTy).Contents (Elt F) :=
  broadcastInDim S600000 ![] bcast_S_S600000 (constant S_ .f32 0x3F800000#32)

/-- Per node, the sum of the weights of the edges into it, at least 1. -/
def count (d : (⟨S600000, .i32⟩ : BufTy).Contents (Elt F)) (w : (⟨S600000, .f32⟩ : BufTy).Contents (Elt F)) :
    (⟨S50000, .f32⟩ : BufTy).Contents (Elt F) :=
  maximumf
    (Host.scatterAdd scatter_S50000_S600000x1_S600000_n_0_0_1
      (broadcastInDim S50000 ![] bcast_S_S50000 (constant S_ .f32 0x00000000#32)) (scatterCol d) w)
    (broadcastInDim S50000 ![] bcast_S_S50000 (constant S_ .f32 0x3F800000#32))

/-- The first aggregation: per node the mean of its in-neighbours' feature rows. -/
def agg1 (x : (⟨S50000x128, .f32⟩ : BufTy).Contents (Elt F)) (s d : (⟨S600000, .i32⟩ : BufTy).Contents (Elt F)) :
    (⟨S50000x128, .f32⟩ : BufTy).Contents (Elt F) :=
  Host.divf
    (Host.scatterAdd scatter_S50000x128_S600000x1_S600000x128_1_0_0_1
      (broadcastInDim S50000x128 ![] bcast_S_S50000x128 (constant S_ .f32 0x00000000#32)) (scatterCol d)
      (Host.gather gather_S50000x128_S600000x1_S600000x128_1_0_n_n_0_1_1128 x (gatherCol s)))
    (broadcastInDim S50000x128 ![0, 1] bcast_S50000x1_S50000x128_0_1
      (broadcastInDim S50000x1 ![0] bcast_S50000_S50000x1_0 (count d ones)))

/-- The second aggregation: per node the weighted mean of its in-neighbours' hidden rows, the weight of an edge its
    0/1 mask bit read as a float. -/
def agg2 (h : (⟨S50000x256, .f32⟩ : BufTy).Contents (Elt F)) (s d : (⟨S600000, .i32⟩ : BufTy).Contents (Elt F))
    (mk : (⟨S600000, .i1⟩ : BufTy).Contents (Elt F)) : (⟨S50000x256, .f32⟩ : BufTy).Contents (Elt F) :=
  Host.divf
    (Host.scatterAdd scatter_S50000x256_S600000x1_S600000x256_1_0_0_1
      (broadcastInDim S50000x256 ![] bcast_S_S50000x256 (constant S_ .f32 0x00000000#32)) (scatterCol d)
      (mulf (Host.gather gather_S50000x256_S600000x1_S600000x256_1_0_n_n_0_1_1256 h (gatherCol s))
        (broadcastInDim S600000x256 ![0, 1] bcast_S600000x1_S600000x256_0_1
          (broadcastInDim S600000x1 ![0] bcast_S600000_S600000x1_0 (uitofp .f32 mk)))))
    (broadcastInDim S50000x256 ![0, 1] bcast_S50000x1_S50000x256_0_1
      (broadcastInDim S50000x1 ![0] bcast_S50000_S50000x1_0 (count d (uitofp .f32 mk))))

/-- A bias vector as a one-row matrix. -/
def row256 (b : (⟨S256, .f32⟩ : BufTy).Contents (Elt F)) : (⟨S1x256, .f32⟩ : BufTy).Contents (Elt F) :=
  shapeCast _ b shapeCasts_S256_S1x256

def row128 (b : (⟨S128, .f32⟩ : BufTy).Contents (Elt F)) : (⟨S1x128, .f32⟩ : BufTy).Contents (Elt F) :=
  shapeCast _ b shapeCasts_S128_S1x128

end Cert.KernelIdeal.Glue

end
-- ==== Proof.KBetween.lean ====
/-
  The kernel program's arrays between its four segments, read back to the launch memory.

  @main is: host operations, the first pallas_call, host operations, the second pallas_call. Before the first call the
  host has built the first aggregation of the node features (Glue.agg1) and the bias rows; the call leaves the hidden
  layer in its result array and touches nothing else; the host then builds the second aggregation of that array
  (Glue.agg2) and two more bias rows; the second call leaves the output. Each array a region is entered with is
  therefore a pure function of the launch memory and, for the second region, of the first region's result.
-/
import proofs.«135690_j37778532336373_1_alg».proof.Proof.KernelIdealFrame
import proofs.«135690_j37778532336373_1_alg».proof.Proof.Glue
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Between

open Cert.KernelIdeal Cert.KernelIdeal.Gen Cert.KernelIdeal.GenP Cert.KernelIdeal.Glue

variable {F : FTy → Type} [FloatOps F]
variable (m : (ℓ : Loc nD τ sig) → Buf (Elt F) ℓ) (ρ : Dev nD → PrngReg)

/-! ## What the first region is entered with -/

set_option maxHeartbeats 2000000 in
theorem V1_v22 (c : Dev nD) : V1 m ρ c main_v22
    = agg1 (m ((c : Thread nD τ).loc main_arg0)) (srcOf (m ((c : Thread nD τ).loc main_arg1))) (dstOf (m ((c : Thread nD τ).loc main_arg1))) := by
  show StableHlo.after hostOps0 (W0 m ρ c) (Proc.devRef .tc main_v22) = _
  after_results_simp
  rfl

theorem V1_arg0 (c : Dev nD) : V1 m ρ c main_arg0 = m ((c : Thread nD τ).loc main_arg0) := by
  show StableHlo.after hostOps0 (W0 m ρ c) (Proc.devRef .tc main_arg0) = _
  after_results

theorem V1_arg3 (c : Dev nD) : V1 m ρ c main_arg3 = m ((c : Thread nD τ).loc main_arg3) := by
  show StableHlo.after hostOps0 (W0 m ρ c) (Proc.devRef .tc main_arg3) = _
  after_results

theorem V1_arg5 (c : Dev nD) : V1 m ρ c main_arg5 = m ((c : Thread nD τ).loc main_arg5) := by
  show StableHlo.after hostOps0 (W0 m ρ c) (Proc.devRef .tc main_arg5) = _
  after_results

theorem V1_arg6 (c : Dev nD) : V1 m ρ c main_arg6 = m ((c : Thread nD τ).loc main_arg6) := by
  show StableHlo.after hostOps0 (W0 m ρ c) (Proc.devRef .tc main_arg6) = _
  after_results

theorem V1_v23 (c : Dev nD) : V1 m ρ c main_v23 = row256 (m ((c : Thread nD τ).loc main_arg4)) := by
  show StableHlo.after hostOps0 (W0 m ρ c) (Proc.devRef .tc main_v23) = _
  after_results
  rfl

theorem V1_v24 (c : Dev nD) : V1 m ρ c main_v24 = row256 (m ((c : Thread nD τ).loc main_arg7)) := by
  show StableHlo.after hostOps0 (W0 m ρ c) (Proc.devRef .tc main_v24) = _
  after_results
  rfl

/-! ## What the first region leaves -/

theorem W1_v1 (c : Dev nD) : W1 m ρ c (Proc.devRef .tc main_v1) = srcOf (m ((c : Thread nD τ).loc main_arg1)) := by
  show StableHlo.after hostOps0 (W0 m ρ c) (Proc.devRef .tc main_v1) = _
  after_results
  rfl

theorem W1_v3 (c : Dev nD) : W1 m ρ c (Proc.devRef .tc main_v3) = dstOf (m ((c : Thread nD τ).loc main_arg1)) := by
  show StableHlo.after hostOps0 (W0 m ρ c) (Proc.devRef .tc main_v3) = _
  after_results
  rfl

theorem W1_arg (b : Ref sig .tc) (hb : b = main_arg2 ∨ b = main_arg8 ∨ b = main_arg9 ∨ b = main_arg10 ∨ b = main_arg11 ∨ b = main_arg12)
    (c : Dev nD) : W1 m ρ c (Proc.devRef .tc b) = m ((c : Thread nD τ).loc b) := by
  rcases hb with rfl | rfl | rfl | rfl | rfl | rfl <;>
    (show StableHlo.after hostOps0 (W0 m ρ c) (Proc.devRef .tc _) = _; after_results)

theorem W2_v1 (c : Dev nD) : W2 m ρ c (Proc.devRef .tc main_v1) = srcOf (m ((c : Thread nD τ).loc main_arg1)) :=
  (W2_of_ne m ρ c main_v1 (by decide)).trans (W1_v1 m ρ c)
theorem W2_v3 (c : Dev nD) : W2 m ρ c (Proc.devRef .tc main_v3) = dstOf (m ((c : Thread nD τ).loc main_arg1)) :=
  (W2_of_ne m ρ c main_v3 (by decide)).trans (W1_v3 m ρ c)
theorem W2_arg2 (c : Dev nD) : W2 m ρ c (Proc.devRef .tc main_arg2) = m ((c : Thread nD τ).loc main_arg2) :=
  (W2_of_ne m ρ c main_arg2 (by decide)).trans (W1_arg m ρ main_arg2 (.inl rfl) c)
theorem W2_arg8 (c : Dev nD) : W2 m ρ c (Proc.devRef .tc main_arg8) = m ((c : Thread nD τ).loc main_arg8) :=
  (W2_of_ne m ρ c main_arg8 (by decide)).trans (W1_arg m ρ main_arg8 (.inr (.inl rfl)) c)
theorem W2_arg9 (c : Dev nD) : W2 m ρ c (Proc.devRef .tc main_arg9) = m ((c : Thread nD τ).loc main_arg9) :=
  (W2_of_ne m ρ c main_arg9 (by decide)).trans (W1_arg m ρ main_arg9 (.inr (.inr (.inl rfl))) c)
theorem W2_arg10 (c : Dev nD) : W2 m ρ c (Proc.devRef .tc main_arg10) = m ((c : Thread nD τ).loc main_arg10) :=
  (W2_of_ne m ρ c main_arg10 (by decide)).trans (W1_arg m ρ main_arg10 (.inr (.inr (.inr (.inl rfl)))) c)
theorem W2_arg11 (c : Dev nD) : W2 m ρ c (Proc.devRef .tc main_arg11) = m ((c : Thread nD τ).loc main_arg11) :=
  (W2_of_ne m ρ c main_arg11 (by decide)).trans (W1_arg m ρ main_arg11 (.inr (.inr (.inr (.inr (.inl rfl))))) c)
theorem W2_arg12 (c : Dev nD) : W2 m ρ c (Proc.devRef .tc main_arg12) = m ((c : Thread nD τ).loc main_arg12) :=
  (W2_of_ne m ρ c main_arg12 (by decide)).trans (W1_arg m ρ main_arg12 (.inr (.inr (.inr (.inr (.inr rfl))))) c)

/-- The first region's result array at its exit: what its write-backs leave. -/
theorem W2_v25 (c : Dev nD) : W2 m ρ c (Proc.devRef .tc main_v25) = (dat0 (V1 m ρ) c).arrAt 7 cfg0.N :=
  W2_arr m ρ c 7

/-! ## What the second region is entered with -/

set_option maxHeartbeats 2000000 in
theorem V3_v47 (c : Dev nD) : V3 m ρ c main_v47
    = agg2 (W2 m ρ c (Proc.devRef .tc main_v25)) (W2 m ρ c (Proc.devRef .tc main_v1)) (W2 m ρ c (Proc.devRef .tc main_v3))
        (W2 m ρ c (Proc.devRef .tc main_arg2)) := by
  show StableHlo.after hostOps1 (W2 m ρ c) (Proc.devRef .tc main_v47) = _
  after_results_simp
  rfl

theorem V3_v25 (c : Dev nD) : V3 m ρ c main_v25 = W2 m ρ c (Proc.devRef .tc main_v25) := by
  show StableHlo.after hostOps1 (W2 m ρ c) (Proc.devRef .tc main_v25) = _
  after_results

theorem V3_arg8 (c : Dev nD) : V3 m ρ c main_arg8 = W2 m ρ c (Proc.devRef .tc main_arg8) := by
  show StableHlo.after hostOps1 (W2 m ρ c) (Proc.devRef .tc main_arg8) = _
  after_results

theorem V3_arg10 (c : Dev nD) : V3 m ρ c main_arg10 = W2 m ρ c (Proc.devRef .tc main_arg10) := by
  show StableHlo.after hostOps1 (W2 m ρ c) (Proc.devRef .tc main_arg10) = _
  after_results

theorem V3_arg11 (c : Dev nD) : V3 m ρ c main_arg11 = W2 m ρ c (Proc.devRef .tc main_arg11) := by
  show StableHlo.after hostOps1 (W2 m ρ c) (Proc.devRef .tc main_arg11) = _
  after_results

theorem V3_v48 (c : Dev nD) : V3 m ρ c main_v48 = row256 (W2 m ρ c (Proc.devRef .tc main_arg9)) := by
  show StableHlo.after hostOps1 (W2 m ρ c) (Proc.devRef .tc main_v48) = _
  after_results
  rfl

theorem V3_v49 (c : Dev nD) : V3 m ρ c main_v49 = row128 (W2 m ρ c (Proc.devRef .tc main_arg12)) := by
  show StableHlo.after hostOps1 (W2 m ρ c) (Proc.devRef .tc main_v49) = _
  after_results
  rfl

/-- The second region's result array at its exit: what its write-backs leave. -/
theorem W4_v50 (c : Dev nD) : W4 m ρ c (Proc.devRef .tc main_v50) = (dat1 (V3 m ρ) c).arrAt 7 cfg1.N :=
  W4_arr m ρ c 7

end Cert.KernelIdeal.Between

end
-- ==== Proof.KWhole.lean ====
/-
  The kernel program's result as one function of its thirteen arguments.

  hiddenOf is the hidden layer of every node: the first pallas_call's whole-array function (KHidden.lean) of the first
  aggregation of the node features, the node features, and the first layer's weights and bias rows. resultOf is the
  second pallas_call's whole-array function (KOutput.lean) of the second aggregation of hiddenOf, hiddenOf itself,
  and the second layer's weights and bias rows. Every weakly fair execution of @main ends with the result array at
  resultOf of the launch memory.
-/
import proofs.«135690_j37778532336373_1_alg».proof.Proof.KernelIdealRun
import proofs.«135690_j37778532336373_1_alg».proof.Proof.KHidden
import proofs.«135690_j37778532336373_1_alg».proof.Proof.KOutput
import proofs.«135690_j37778532336373_1_alg».proof.Proof.KBetween

set_option maxRecDepth 16384

noncomputable section

open Idealize.ShloMosaic Idealize.ShloMosaic.TcCoe Idealize.SL.Sem

namespace Cert.KernelIdeal.Whole

open Cert.KernelIdeal Cert.KernelIdeal.Gen Cert.KernelIdeal.GenP Cert.KernelIdeal.Glue Cert.KernelIdeal.Between

/-- The hidden layer of every node, from the node features x0, the edge list x1 and the first layer's parameters. -/
def hiddenOf (x0 : FVec Ideal S50000x128 .f32) (x1 : IVec S2x600000 32) (x3 : FVec Ideal S256x128 .f32) (x4 : FVec Ideal S256 .f32)
    (x5 x6 : FVec Ideal S256x128 .f32) (x7 : FVec Ideal S256 .f32) : FVec Ideal S50000x256 .f32 :=
  Cert.KernelIdeal.Hidden.H (agg1 (F := Ideal) x0 (srcOf (F := Ideal) x1) (dstOf (F := Ideal) x1)) x0 x3 (row256 (F := Ideal) x4) x5 x6
    (row256 (F := Ideal) x7)

/-- The network's output for every node, from all thirteen arguments. -/
def resultOf (x0 : FVec Ideal S50000x128 .f32) (x1 : IVec S2x600000 32) (x2 : IVec S600000 1) (x3 : FVec Ideal S256x128 .f32)
    (x4 : FVec Ideal S256 .f32) (x5 x6 : FVec Ideal S256x128 .f32) (x7 : FVec Ideal S256 .f32) (x8 : FVec Ideal S256x256 .f32)
    (x9 : FVec Ideal S256 .f32) (x10 : FVec Ideal S256x256 .f32) (x11 : FVec Ideal S128x256 .f32) (x12 : FVec Ideal S128 .f32) :
    FVec Ideal S50000x128 .f32 :=
  Cert.KernelIdeal.Output.O
    (agg2 (F := Ideal) (hiddenOf x0 x1 x3 x4 x5 x6 x7) (srcOf (F := Ideal) x1) (dstOf (F := Ideal) x1) x2)
    (hiddenOf x0 x1 x3 x4 x5 x6 x7) x8 (row256 (F := Ideal) x9) x10 x11 (row128 (F := Ideal) x12)

variable (m : (ℓ : Loc nD τ sig) → Buf (Elt Ideal) ℓ) (ρ : Dev nD → PrngReg)

/-- The first region leaves the hidden layer of the launch memory in its result array. -/
theorem hidden_eq (c : Dev nD) : W2 m ρ c (Proc.devRef .tc main_v25)
    = hiddenOf (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6))
        (m ((c : Thread nD τ).loc main_arg7)) := by
  rw [W2_v25, Cert.KernelIdeal.Hidden.final (V1 m ρ) c, V1_v22, V1_arg0, V1_arg3, V1_v23, V1_arg5, V1_arg6, V1_v24]
  rfl

/-- The second region leaves the output of the launch memory in its result array. -/
theorem result_eq (c : Dev nD) : W4 m ρ c (Proc.devRef .tc main_v50)
    = resultOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) := by
  rw [W4_v50, Cert.KernelIdeal.Output.final (V3 m ρ) c, V3_v47, V3_v25, V3_arg8, V3_v48, V3_arg10, V3_arg11, V3_v49,
    hidden_eq, W2_v1, W2_v3, W2_arg2, W2_arg8, W2_arg9, W2_arg10, W2_arg11, W2_arg12]
  rfl

end Cert.KernelIdeal.Whole

end
-- ==== Proof.RefRows.lean ====
/-
  The reference's two dense layers read row by row.

  The reference computes all 50000 node rows at once. Read at an entry (p, q), its hidden layer is the hidden row
  function (Spec.lean) of row p of the aggregated features and of the node features, and its result is the output row
  function of row p of the second aggregation and of the hidden layer: each stage of the chain between them looks
  only at row p of what it is given.
-/
import proofs.«135690_j37778532336373_1_alg».proof.Proof.Gen.ReferenceIdeal.Read
import proofs.«135690_j37778532336373_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.ReferenceIdeal.Rows

open Cert.ReferenceIdeal Cert.ReferenceIdeal.Read

/-! ## Where each stage reads

Every layout stage and every contraction of the chain reads its operand at an index built from the coordinates of the
entry asked for. At an entry given by its coordinates the index read is again one given by coordinates: a contraction
at (p, q) reads row p of its left operand and column q of its right one; a transposed matrix at (k, q) is the matrix at
(q, k); a bias spread over the rows is read at its channel; a per-row scalar spread over the channels is read at its
row; the row sum at row p runs over the entries (p, k). -/

theorem lidx_v27_ix (p : Fin 50000) (q : Fin 256) (k : Fin 128) : lidx_main_v27 (ix2 p q) k = ix2 p k :=
  funext fun a => Fin.ext (by match a with | ⟨0, _⟩ => rfl | ⟨1, _⟩ => rfl)
theorem ridx_v27_ix (p : Fin 50000) (q : Fin 256) (k : Fin 128) : ridx_main_v27 (ix2 p q) k = ix2 k q :=
  funext fun a => Fin.ext (by match a with | ⟨0, _⟩ => rfl | ⟨1, _⟩ => rfl)
theorem idx_v26_ix (k : Fin 128) (q : Fin 256) : idx_main_v26 (ix2 k q) = ix2 q k :=
  funext fun a => Fin.ext (by match a with | ⟨0, _⟩ => rfl | ⟨1, _⟩ => rfl)
theorem idx_v29_ix (p : Fin 50000) (q : Fin 256) : idx_main_v29 (ix2 p q) = ix2 (⟨0, Nat.one_pos⟩ : Fin 1) q :=
  funext fun a => Fin.ext (by match a with | ⟨0, _⟩ => rfl | ⟨1, _⟩ => rfl)
theorem idx_v28_ix (z : Fin 1) (q : Fin 256) : idx_main_v28 (ix2 z q) = ix1 q :=
  funext fun a => Fin.ext (by match a with | ⟨0, _⟩ => rfl)
theorem lidx_v32_ix (p : Fin 50000) (q : Fin 256) (k : Fin 128) : lidx_main_v32 (ix2 p q) k = ix2 p k :=
  funext fun a => Fin.ext (by match a with | ⟨0, _⟩ => rfl | ⟨1, _⟩ => rfl)
theorem ridx_v32_ix (p : Fin 50000) (q : Fin 256) (k : Fin 128) : ridx_main_v32 (ix2 p q) k = ix2 k q :=
  funext fun a => Fin.ext (by match a with | ⟨0, _⟩ => rfl | ⟨1, _⟩ => rfl)
theorem idx_v31_ix (k : Fin 128) (q : Fin 256) : idx_main_v31 (ix2 k q) = ix2 q k :=
  funext fun a => Fin.ext (by match a with | ⟨0, _⟩ => rfl | ⟨1, _⟩ => rfl)
theorem idx_v37_ix (p : Fin 50000) (q : Fin 256) : idx_main_v37 (ix2 p q) = ix2 p (⟨0, Nat.one_pos⟩ : Fin 1) :=
  funext fun a => Fin.ext (by match a with | ⟨0, _⟩ => rfl | ⟨1, _⟩ => rfl)
theorem idx_call0_v2_ix (p : Fin 50000) (z : Fin 1) : idx_main_call0_v2 (ix2 p z) = ix1 p :=
  funext fun a => Fin.ext (by match a with | ⟨0, _⟩ => rfl)
theorem idx_call0_v1_ix (p : Fin 50000) (k : Fin 256) : idx_main_call0_v1 (ix1 p) k = ix2 p k :=
  funext fun a => Fin.ext (by match a with | ⟨0, _⟩ => rfl | ⟨1, _⟩ => rfl)
theorem lidx_v40_ix (p : Fin 50000) (q : Fin 256) (k : Fin 128) : lidx_main_v40 (ix2 p q) k = ix2 p k :=
  funext fun a => Fin.ext (by match a with | ⟨0, _⟩ => rfl | ⟨1, _⟩ => rfl)
theorem ridx_v40_ix (p : Fin 50000) (q : Fin 256) (k : Fin 128) : ridx_main_v40 (ix2 p q) k = ix2 k q :=
  funext fun a => Fin.ext (by match a with | ⟨0, _⟩ => rfl | ⟨1, _⟩ => rfl)
theorem idx_v39_ix (k : Fin 128) (q : Fin 256) : idx_main_v39 (ix2 k q) = ix2 q k :=
  funext fun a => Fin.ext (by match a with | ⟨0, _⟩ => rfl | ⟨1, _⟩ => rfl)
theorem idx_v42_ix (p : Fin 50000) (q : Fin 256) : idx_main_v42 (ix2 p q) = ix2 (⟨0, Nat.one_pos⟩ : Fin 1) q :=
  funext fun a => Fin.ext (by match a with | ⟨0, _⟩ => rfl | ⟨1, _⟩ => rfl)
theorem idx_v41_ix (z : Fin 1) (q : Fin 256) : idx_main_v41 (ix2 z q) = ix1 q :=
  funext fun a => Fin.ext (by match a with | ⟨0, _⟩ => rfl)
theorem lidx_v69_ix (p : Fin 50000) (q : Fin 256) (k : Fin 256) : lidx_main_v69 (ix2 p q) k = ix2 p k :=
  funext fun a => Fin.ext (by match a with | ⟨0, _⟩ => rfl | ⟨1, _⟩ => rfl)
theorem ridx_v69_ix (p : Fin 50000) (q : Fin 256) (k : Fin 256) : ridx_main_v69 (ix2 p q) k = ix2 k q :=
  funext fun a => Fin.ext (by match a with | ⟨0, _⟩ => rfl | ⟨1, _⟩ => rfl)
theorem idx_v68_ix (k : Fin 256) (q : Fin 256) : idx_main_v68 (ix2 k q) = ix2 q k :=
  funext fun a => Fin.ext (by match a with | ⟨0, _⟩ => rfl | ⟨1, _⟩ => rfl)
theorem idx_v71_ix (p : Fin 50000) (q : Fin 256) : idx_main_v71 (ix2 p q) = ix2 (⟨0, Nat.one_pos⟩ : Fin 1) q :=
  funext fun a => Fin.ext (by match a with | ⟨0, _⟩ => rfl | ⟨1, _⟩ => rfl)
theorem idx_v70_ix (z : Fin 1) (q : Fin 256) : idx_main_v70 (ix2 z q) = ix1 q :=
  funext fun a => Fin.ext (by match a with | ⟨0, _⟩ => rfl)
theorem lidx_v74_ix (p : Fin 50000) (q : Fin 256) (k : Fin 256) : lidx_main_v74 (ix2 p q) k = ix2 p k :=
  funext fun a => Fin.ext (by match a with | ⟨0, _⟩ => rfl | ⟨1, _⟩ => rfl)
theorem ridx_v74_ix (p : Fin 50000) (q : Fin 256) (k : Fin 256) : ridx_main_v74 (ix2 p q) k = ix2 k q :=
  funext fun a => Fin.ext (by match a with | ⟨0, _⟩ => rfl | ⟨1, _⟩ => rfl)
theorem idx_v73_ix (k : Fin 256) (q : Fin 256) : idx_main_v73 (ix2 k q) = ix2 q k :=
  funext fun a => Fin.ext (by match a with | ⟨0, _⟩ => rfl | ⟨1, _⟩ => rfl)
theorem idx_v79_ix (p : Fin 50000) (q : Fin 256) : idx_main_v79 (ix2 p q) = ix2 p (⟨0, Nat.one_pos⟩ : Fin 1) :=
  funext fun a => Fin.ext (by match a with | ⟨0, _⟩ => rfl | ⟨1, _⟩ => rfl)
theorem idx_call1_v2_ix (p : Fin 50000) (z : Fin 1) : idx_main_call1_v2 (ix2 p z) = ix1 p :=
  funext fun a => Fin.ext (by match a with | ⟨0, _⟩ => rfl)
theorem idx_call1_v1_ix (p : Fin 50000) (k : Fin 256) : idx_main_call1_v1 (ix1 p) k = ix2 p k :=
  funext fun a => Fin.ext (by match a with | ⟨0, _⟩ => rfl | ⟨1, _⟩ => rfl)
theorem lidx_v83_ix (p : Fin 50000) (q : Fin 128) (k : Fin 256) : lidx_main_v83 (ix2 p q) k = ix2 p k :=
  funext fun a => Fin.ext (by match a with | ⟨0, _⟩ => rfl | ⟨1, _⟩ => rfl)
theorem ridx_v83_ix (p : Fin 50000) (q : Fin 128) (k : Fin 256) : ridx_main_v83 (ix2 p q) k = ix2 k q :=
  funext fun a => Fin.ext (by match a with | ⟨0, _⟩ => rfl | ⟨1, _⟩ => rfl)
theorem idx_v82_ix (k : Fin 256) (q : Fin 128) : idx_main_v82 (ix2 k q) = ix2 q k :=
  funext fun a => Fin.ext (by match a with | ⟨0, _⟩ => rfl | ⟨1, _⟩ => rfl)
theorem idx_v85_ix (p : Fin 50000) (q : Fin 128) : idx_main_v85 (ix2 p q) = ix2 (⟨0, Nat.one_pos⟩ : Fin 1) q :=
  funext fun a => Fin.ext (by match a with | ⟨0, _⟩ => rfl | ⟨1, _⟩ => rfl)
theorem idx_v84_ix (z : Fin 1) (q : Fin 128) : idx_main_v84 (ix2 z q) = ix1 q :=
  funext fun a => Fin.ext (by match a with | ⟨0, _⟩ => rfl)

/-! ## The row functions from their parts

Each row function of Spec.lean, met as the reference builds it: from values that are already known to be its parts, put
together by the reference's own operations in the reference's own order. Stated over arbitrary values, so that nothing
of the program stands inside these equations. -/

/-- A value built as (s₁ + b) + s₂ from two contraction sums and a bias is the linear part of a layer. -/
theorem lin_glue {K N : ℕ} (a x : Fin K → EReal) (Wl Wr : Fin N → Fin K → EReal) (bl : Fin N → EReal) (j : Fin N)
    {s₁ b s₂ : Ideal .f32} (h₁ : s₁ = ∑ k : Fin K, a k * Wl j k) (hb : b = bl j)
    (h₂ : s₂ = ∑ k : Fin K, x k * Wr j k) :
    FloatOps.addf (FloatOps.addf s₁ b) s₂ = Cert.Sage.lin a x Wl Wr bl j := by
  subst h₁ hb h₂
  rfl

/-- The square root of a row sum of squares of the linear part, the sum started from the zero word, floored at ε, is
    the layer's norm: the zero word adds nothing. -/
theorem nrm_glue {K N : ℕ} (a x : Fin K → EReal) (Wl Wr : Fin N → Fin K → EReal) (bl : Fin N → EReal)
    {sq : Fin N → Ideal .f32}
    (hsq : ∀ k, sq k = FloatOps.mulf (Cert.Sage.lin a x Wl Wr bl k : Ideal .f32) (Cert.Sage.lin a x Wl Wr bl k)) :
    FloatOps.maximumf (FloatOps.hostUnary .sqrt (FloatOps.ofBits (F := Ideal) .f32 0x00000000#32 + ∑ k : Fin N, sq k))
        (FloatOps.ofBits (F := Ideal) .f32 0x2B8CBCCC#32)
      = Cert.Sage.nrm a x Wl Wr bl := by
  obtain rfl : sq = fun k => FloatOps.mulf (Cert.Sage.lin a x Wl Wr bl k : Ideal .f32) (Cert.Sage.lin a x Wl Wr bl k) :=
    funext hsq
  simp only [Ideal.ofBits_def, Ideal.ofBits_zero_f32, zero_add]
  rfl

/-- tanh of the linear part over the norm, plus the skip connection, is the hidden row. -/
theorem hid_glue {K N : ℕ} (a x : Fin K → EReal) (Wl Wr Ws : Fin N → Fin K → EReal) (bl bs : Fin N → EReal) (j : Fin N)
    {l n s c : Ideal .f32} (hl : l = Cert.Sage.lin a x Wl Wr bl j) (hn : n = Cert.Sage.nrm a x Wl Wr bl)
    (hs : s = ∑ k : Fin K, x k * Ws j k) (hc : c = bs j) :
    FloatOps.hostUnary .tanh (FloatOps.addf (FloatOps.hostDivf l n) (FloatOps.addf s c))
      = Cert.Sage.hid a x Wl Wr Ws bl bs j := by
  subst hl hn hs hc
  rfl

/-- A contraction of tanh of the normalised linear part with the last weights, plus the last bias, is the output row. -/
theorem outp_glue {K N P : ℕ} (a h : Fin K → EReal) (Wl Wr : Fin N → Fin K → EReal) (bl : Fin N → EReal)
    (Wo : Fin P → Fin N → EReal) (bo : Fin P → EReal) (j : Fin P) {t : Fin N → Ideal .f32} {c : Ideal .f32}
    (ht : ∀ k, t k = (FloatOps.hostUnary .tanh (FloatOps.hostDivf (Cert.Sage.lin a h Wl Wr bl k : Ideal .f32)
        (Cert.Sage.nrm a h Wl Wr bl)) : Ideal .f32) * Wo j k) (hc : c = bo j) :
    FloatOps.addf (∑ k : Fin N, t k) c = Cert.Sage.outp a h Wl Wr bl Wo bo j := by
  obtain rfl : t = fun k => (FloatOps.hostUnary .tanh (FloatOps.hostDivf (Cert.Sage.lin a h Wl Wr bl k : Ideal .f32)
      (Cert.Sage.nrm a h Wl Wr bl)) : Ideal .f32) * Wo j k := funext ht
  subst hc
  rfl

/-! ## The two layers' linear parts and norms -/

/-- The hidden layer's linear part at (p, j): the aggregated row times the left weights plus the bias, plus the node's
    own row times the right weights, summand for summand in the order the row function adds them. -/
theorem lin1_at (x0 : (⟨S50000x128, .f32⟩ : BufTy).Contents (Elt Ideal)) (x1 : (⟨S2x600000, .i32⟩ : BufTy).Contents (Elt Ideal))
    (x3 : (⟨S256x128, .f32⟩ : BufTy).Contents (Elt Ideal)) (x4 : (⟨S256, .f32⟩ : BufTy).Contents (Elt Ideal))
    (x5 : (⟨S256x128, .f32⟩ : BufTy).Contents (Elt Ideal)) (p : Fin 50000) (j : Fin 256) :
    val_main_v33 (F := Ideal) x0 x1 x3 x4 x5 (ix2 p j)
      = Cert.Sage.lin (fun k : Fin 128 => val_main_v25 (F := Ideal) x0 x1 (ix2 p k)) (fun k : Fin 128 => x0 (ix2 p k))
          (fun (j : Fin 256) (k : Fin 128) => x3 (ix2 j k)) (fun (j : Fin 256) (k : Fin 128) => x5 (ix2 j k))
          (fun j : Fin 256 => x4 (ix1 j)) j := by
  rw [val_main_v33_apply, val_main_v30_apply, val_main_v27_apply, val_main_v29_apply, idx_v29_ix, val_main_v28_apply,
    idx_v28_ix, val_main_v32_apply]
  refine lin_glue _ _ _ _ _ j (Finset.sum_congr rfl fun k _ => ?_) rfl (Finset.sum_congr rfl fun k _ => ?_)
  · rw [lidx_v27_ix, ridx_v27_ix, val_main_v26_apply, idx_v26_ix]
  · rw [lidx_v32_ix, ridx_v32_ix, val_main_v31_apply, idx_v31_ix]

/-- The hidden layer's divisor at (p, q) does not depend on q: it is the floored norm of row p's linear part. -/
theorem nrm1_at (x0 : (⟨S50000x128, .f32⟩ : BufTy).Contents (Elt Ideal)) (x1 : (⟨S2x600000, .i32⟩ : BufTy).Contents (Elt Ideal))
    (x3 : (⟨S256x128, .f32⟩ : BufTy).Contents (Elt Ideal)) (x4 : (⟨S256, .f32⟩ : BufTy).Contents (Elt Ideal))
    (x5 : (⟨S256x128, .f32⟩ : BufTy).Contents (Elt Ideal)) (p : Fin 50000) (q : Fin 256) :
    val_main_v37 (F := Ideal) x0 x1 x3 x4 x5 (ix2 p q)
      = Cert.Sage.nrm (fun k : Fin 128 => val_main_v25 (F := Ideal) x0 x1 (ix2 p k)) (fun k : Fin 128 => x0 (ix2 p k))
          (fun (j : Fin 256) (k : Fin 128) => x3 (ix2 j k)) (fun (j : Fin 256) (k : Fin 128) => x5 (ix2 j k))
          (fun j : Fin 256 => x4 (ix1 j)) := by
  rw [val_main_v37_apply, idx_v37_ix, val_main_v36_apply, val_main_v34_apply, val_main_v35_apply, val_main_cst_4_apply,
    val_main_call0_v2_apply, idx_call0_v2_ix, val_main_call0_v1_apply, val_main_call0_cst_apply]
  refine nrm_glue _ _ _ _ _ fun k => ?_
  rw [idx_call0_v1_ix, val_main_call0_v0_apply, lin1_at]

/-- The output layer's linear part at (p, j): row p of the second aggregation times the left weights plus the bias, plus
    row p of the hidden layer times the right weights. -/
theorem lin2_at (x0 : (⟨S50000x128, .f32⟩ : BufTy).Contents (Elt Ideal)) (x1 : (⟨S2x600000, .i32⟩ : BufTy).Contents (Elt Ideal))
    (x2 : (⟨S600000, .i1⟩ : BufTy).Contents (Elt Ideal))
    (x3 : (⟨S256x128, .f32⟩ : BufTy).Contents (Elt Ideal)) (x4 : (⟨S256, .f32⟩ : BufTy).Contents (Elt Ideal))
    (x5 x6 : (⟨S256x128, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S256x256, .f32⟩ : BufTy).Contents (Elt Ideal)) (p : Fin 50000) (j : Fin 256) :
    val_main_v75 (F := Ideal) x0 x1 x2 x3 x4 x5 x6 x7 x8 x9 x10 (ix2 p j)
      = Cert.Sage.lin (fun k : Fin 256 => val_main_v67 (F := Ideal) x0 x1 x2 x3 x4 x5 x6 x7 (ix2 p k))
          (fun k : Fin 256 => val_main_v45 (F := Ideal) x0 x1 x3 x4 x5 x6 x7 (ix2 p k))
          (fun (j : Fin 256) (k : Fin 256) => x8 (ix2 j k)) (fun (j : Fin 256) (k : Fin 256) => x10 (ix2 j k))
          (fun j : Fin 256 => x9 (ix1 j)) j := by
  rw [val_main_v75_apply, val_main_v72_apply, val_main_v69_apply, val_main_v71_apply, idx_v71_ix, val_main_v70_apply,
    idx_v70_ix, val_main_v74_apply]
  refine lin_glue _ _ _ _ _ j (Finset.sum_congr rfl fun k _ => ?_) rfl (Finset.sum_congr rfl fun k _ => ?_)
  · rw [lidx_v69_ix, ridx_v69_ix, val_main_v68_apply, idx_v68_ix]
  · rw [lidx_v74_ix, ridx_v74_ix, val_main_v73_apply, idx_v73_ix]

/-- The output layer's divisor at (p, q) does not depend on q: it is the floored norm of row p's linear part. -/
theorem nrm2_at (x0 : (⟨S50000x128, .f32⟩ : BufTy).Contents (Elt Ideal)) (x1 : (⟨S2x600000, .i32⟩ : BufTy).Contents (Elt Ideal))
    (x2 : (⟨S600000, .i1⟩ : BufTy).Contents (Elt Ideal))
    (x3 : (⟨S256x128, .f32⟩ : BufTy).Contents (Elt Ideal)) (x4 : (⟨S256, .f32⟩ : BufTy).Contents (Elt Ideal))
    (x5 x6 : (⟨S256x128, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S256x256, .f32⟩ : BufTy).Contents (Elt Ideal)) (p : Fin 50000) (q : Fin 256) :
    val_main_v79 (F := Ideal) x0 x1 x2 x3 x4 x5 x6 x7 x8 x9 x10 (ix2 p q)
      = Cert.Sage.nrm (fun k : Fin 256 => val_main_v67 (F := Ideal) x0 x1 x2 x3 x4 x5 x6 x7 (ix2 p k))
          (fun k : Fin 256 => val_main_v45 (F := Ideal) x0 x1 x3 x4 x5 x6 x7 (ix2 p k))
          (fun (j : Fin 256) (k : Fin 256) => x8 (ix2 j k)) (fun (j : Fin 256) (k : Fin 256) => x10 (ix2 j k))
          (fun j : Fin 256 => x9 (ix1 j)) := by
  rw [val_main_v79_apply, idx_v79_ix, val_main_v78_apply, val_main_v76_apply, val_main_v77_apply, val_main_cst_10_apply,
    val_main_call1_v2_apply, idx_call1_v2_ix, val_main_call1_v1_apply, val_main_call1_cst_apply]
  refine nrm_glue _ _ _ _ _ fun k => ?_
  rw [idx_call1_v1_ix, val_main_call1_v0_apply, lin2_at]

/-- The hidden layer at (p, q): the hidden row function of row p of the first aggregation (stage v25) and of the
    node features, at channel q. -/
theorem hidden_at (x0 : (⟨S50000x128, .f32⟩ : BufTy).Contents (Elt Ideal)) (x1 : (⟨S2x600000, .i32⟩ : BufTy).Contents (Elt Ideal))
    (x3 : (⟨S256x128, .f32⟩ : BufTy).Contents (Elt Ideal)) (x4 : (⟨S256, .f32⟩ : BufTy).Contents (Elt Ideal))
    (x5 x6 : (⟨S256x128, .f32⟩ : BufTy).Contents (Elt Ideal)) (x7 : (⟨S256, .f32⟩ : BufTy).Contents (Elt Ideal))
    (p : Fin 50000) (q : Fin 256) :
    val_main_v45 (F := Ideal) x0 x1 x3 x4 x5 x6 x7 (ix2 p q)
      = Cert.Sage.hid (fun k : Fin 128 => val_main_v25 (F := Ideal) x0 x1 (ix2 p k)) (fun k : Fin 128 => x0 (ix2 p k))
          (fun (j : Fin 256) (k : Fin 128) => x3 (ix2 j k)) (fun (j : Fin 256) (k : Fin 128) => x5 (ix2 j k))
          (fun (j : Fin 256) (k : Fin 128) => x6 (ix2 j k)) (fun j : Fin 256 => x4 (ix1 j)) (fun j : Fin 256 => x7 (ix1 j)) q := by
  rw [val_main_v45_apply, val_main_v44_apply, val_main_v38_apply, val_main_v43_apply, val_main_v40_apply,
    val_main_v42_apply, idx_v42_ix, val_main_v41_apply, idx_v41_ix]
  refine hid_glue _ _ _ _ _ _ _ q (lin1_at x0 x1 x3 x4 x5 p q) (nrm1_at x0 x1 x3 x4 x5 p q)
    (Finset.sum_congr rfl fun k _ => ?_) rfl
  rw [lidx_v40_ix, ridx_v40_ix, val_main_v39_apply, idx_v39_ix]

/-- The result at (p, q): the output row function of row p of the second aggregation (stage v67) and of the hidden
    layer (stage v45), at channel q. -/
theorem result_at (x0 : (⟨S50000x128, .f32⟩ : BufTy).Contents (Elt Ideal)) (x1 : (⟨S2x600000, .i32⟩ : BufTy).Contents (Elt Ideal))
    (x2 : (⟨S600000, .i1⟩ : BufTy).Contents (Elt Ideal))
    (x3 : (⟨S256x128, .f32⟩ : BufTy).Contents (Elt Ideal)) (x4 : (⟨S256, .f32⟩ : BufTy).Contents (Elt Ideal))
    (x5 x6 : (⟨S256x128, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S256x256, .f32⟩ : BufTy).Contents (Elt Ideal)) (x11 : (⟨S128x256, .f32⟩ : BufTy).Contents (Elt Ideal))
    (x12 : (⟨S128, .f32⟩ : BufTy).Contents (Elt Ideal)) (p : Fin 50000) (q : Fin 128) :
    val_main_v86 (F := Ideal) x0 x1 x2 x3 x4 x5 x6 x7 x8 x9 x10 x11 x12 (ix2 p q)
      = Cert.Sage.outp (fun k : Fin 256 => val_main_v67 (F := Ideal) x0 x1 x2 x3 x4 x5 x6 x7 (ix2 p k))
          (fun k : Fin 256 => val_main_v45 (F := Ideal) x0 x1 x3 x4 x5 x6 x7 (ix2 p k))
          (fun (j : Fin 256) (k : Fin 256) => x8 (ix2 j k)) (fun (j : Fin 256) (k : Fin 256) => x10 (ix2 j k))
          (fun j : Fin 256 => x9 (ix1 j)) (fun (j : Fin 128) (k : Fin 256) => x11 (ix2 j k)) (fun j : Fin 128 => x12 (ix1 j)) q := by
  rw [val_main_v86_apply, val_main_v83_apply, val_main_v85_apply, idx_v85_ix, val_main_v84_apply, idx_v84_ix]
  refine outp_glue _ _ _ _ _ _ _ q (fun k => ?_) rfl
  rw [lidx_v83_ix, ridx_v83_ix, val_main_v82_apply, idx_v82_ix, val_main_v81_apply, val_main_v80_apply, lin2_at, nrm2_at]

end Cert.ReferenceIdeal.Rows

end
-- ==== Proof.RefGraph.lean ====
/-
  The reference's graph side is the same mean aggregation as the kernel program's.

  The reference multiplies every gathered source row by its edge's weight before summing; in the first layer every
  weight is 1 and x · 1 = x on the extended reals (also at ±∞), so its first aggregation is Glue.agg1 of the node
  features. Its second aggregation is, operation for operation, Glue.agg2 of its own hidden layer. A bias vector spread
  as a one-row matrix reads, at (0, j), the vector at j.
-/
import proofs.«135690_j37778532336373_1_alg».proof.Proof.Gen.ReferenceIdeal.Read
import proofs.«135690_j37778532336373_1_alg».proof.Proof.Glue
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.ReferenceIdeal.Graph

open Cert.ReferenceIdeal Cert.ReferenceIdeal.Read

/-- The single-precision pattern of 1.0 denotes 1. -/
theorem one_f32 : Ideal.ofBits .f32 0x3F800000#32 = 1 := IdealRules.sign_bit.ideal_onePat .f32

/-- Every entry of the all-ones weight array spread over the gathered rows is 1. -/
theorem ones_apply (i : S600000x128.Idx) : val_main_v13 (F := Ideal) i = 1 := by
  rw [val_main_v13_apply, val_main_v12_apply, val_main_v4_apply, val_main_cst_apply]
  exact one_f32

/-- Multiplying the gathered rows by the all-ones weights changes nothing. -/
theorem weighted_eq (x0 : (⟨S50000x128, .f32⟩ : BufTy).Contents (Elt Ideal)) (x1 : (⟨S2x600000, .i32⟩ : BufTy).Contents (Elt Ideal)) :
    val_main_v14 (F := Ideal) x0 x1 = val_main_v11 (F := Ideal) x0 x1 := by
  funext i
  rw [val_main_v14_apply, ones_apply]
  exact mul_one _

/-- The reference's first aggregation is the mean aggregation of the node features. -/
theorem agg1_eq (x0 : (⟨S50000x128, .f32⟩ : BufTy).Contents (Elt Ideal)) (x1 : (⟨S2x600000, .i32⟩ : BufTy).Contents (Elt Ideal)) :
    val_main_v25 (F := Ideal) x0 x1
      = Cert.KernelIdeal.Glue.agg1 (F := Ideal) x0 (Cert.KernelIdeal.Glue.srcOf (F := Ideal) x1) (Cert.KernelIdeal.Glue.dstOf (F := Ideal) x1) := by
  unfold val_main_v25 val_main_v17
  rw [weighted_eq]
  rfl

variable {F : FTy → Type} [FloatOps F]

/-- The reference's second aggregation is the weighted mean aggregation of its hidden layer. -/
theorem agg2_eq (x0 : (⟨S50000x128, .f32⟩ : BufTy).Contents (Elt F)) (x1 : (⟨S2x600000, .i32⟩ : BufTy).Contents (Elt F))
    (x2 : (⟨S600000, .i1⟩ : BufTy).Contents (Elt F))
    (x3 : (⟨S256x128, .f32⟩ : BufTy).Contents (Elt F)) (x4 : (⟨S256, .f32⟩ : BufTy).Contents (Elt F))
    (x5 x6 : (⟨S256x128, .f32⟩ : BufTy).Contents (Elt F)) (x7 : (⟨S256, .f32⟩ : BufTy).Contents (Elt F)) :
    val_main_v67 (F := F) x0 x1 x2 x3 x4 x5 x6 x7
      = Cert.KernelIdeal.Glue.agg2 (F := F) (val_main_v45 (F := F) x0 x1 x3 x4 x5 x6 x7)
          (Cert.KernelIdeal.Glue.srcOf (F := F) x1) (Cert.KernelIdeal.Glue.dstOf (F := F) x1) x2 := rfl

/-- A bias vector as a one-row matrix, at (0, j). -/
theorem row256_apply (b : (⟨S256, .f32⟩ : BufTy).Contents (Elt Ideal)) (j : Fin 256) :
    Cert.KernelIdeal.Glue.row256 (F := Ideal) b (ix2 (0 : Fin 1) j) = b (ix1 j) :=
  shapeCast_a_1a_apply b _ 0 j

theorem row128_apply (b : (⟨S128, .f32⟩ : BufTy).Contents (Elt Ideal)) (j : Fin 128) :
    Cert.KernelIdeal.Glue.row128 (F := Ideal) b (ix2 (0 : Fin 1) j) = b (ix1 j) :=
  shapeCast_a_1a_apply b _ 0 j

end Cert.ReferenceIdeal.Graph

end
-- ==== Proof.Bridge.lean ====
/-
  The two programs compute one function.

  Over any thirteen arrays, the reference's result (its last stage) is the kernel program's resultOf. Row by row:
  the reference's hidden layer at (p, q) is the hidden row function of row p of its first aggregation and of the node
  features (RefRows.lean), the kernel's is the same row function of row p of Glue.agg1 (KHidden.lean), and the two
  aggregations are one array (RefGraph.lean); so the hidden layers are one array. The second aggregations are then
  the same function of that one array, and the output rows agree in the same way.
-/
import proofs.«135690_j37778532336373_1_alg».proof.Proof.RefRows
import proofs.«135690_j37778532336373_1_alg».proof.Proof.RefGraph
import proofs.«135690_j37778532336373_1_alg».proof.Proof.KWhole

noncomputable section

open Idealize.ShloMosaic Idealize.ShloMosaic.TcCoe Idealize.ShloMosaic.ValueIdx

namespace Cert.Bridge

open Cert.ReferenceIdeal Cert.ReferenceIdeal.Read

/-- The reference's hidden layer is the kernel program's. -/
theorem hidden_eq (x0 : (⟨S50000x128, .f32⟩ : BufTy).Contents (Elt Ideal)) (x1 : (⟨S2x600000, .i32⟩ : BufTy).Contents (Elt Ideal))
    (x3 : (⟨S256x128, .f32⟩ : BufTy).Contents (Elt Ideal)) (x4 : (⟨S256, .f32⟩ : BufTy).Contents (Elt Ideal))
    (x5 x6 : (⟨S256x128, .f32⟩ : BufTy).Contents (Elt Ideal)) (x7 : (⟨S256, .f32⟩ : BufTy).Contents (Elt Ideal)) :
    val_main_v45 (F := Ideal) x0 x1 x3 x4 x5 x6 x7 = Cert.KernelIdeal.Whole.hiddenOf x0 x1 x3 x4 x5 x6 x7 := by
  funext i
  obtain ⟨p, q, rfl⟩ : ∃ (p : Fin 50000) (q : Fin 256), i = ix2 p q := ⟨i 0, i 1, eq_ix2 i⟩
  rw [Cert.ReferenceIdeal.Rows.hidden_at, Cert.ReferenceIdeal.Graph.agg1_eq]
  unfold Cert.KernelIdeal.Whole.hiddenOf
  rw [Cert.KernelIdeal.Hidden.H_at]
  simp only [Cert.ReferenceIdeal.Graph.row256_apply]

/-- The reference's result is the kernel program's. -/
theorem result_eq (x0 : (⟨S50000x128, .f32⟩ : BufTy).Contents (Elt Ideal)) (x1 : (⟨S2x600000, .i32⟩ : BufTy).Contents (Elt Ideal))
    (x2 : (⟨S600000, .i1⟩ : BufTy).Contents (Elt Ideal))
    (x3 : (⟨S256x128, .f32⟩ : BufTy).Contents (Elt Ideal)) (x4 : (⟨S256, .f32⟩ : BufTy).Contents (Elt Ideal))
    (x5 x6 : (⟨S256x128, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S256x256, .f32⟩ : BufTy).Contents (Elt Ideal)) (x11 : (⟨S128x256, .f32⟩ : BufTy).Contents (Elt Ideal))
    (x12 : (⟨S128, .f32⟩ : BufTy).Contents (Elt Ideal)) :
    val_main_v86 (F := Ideal) x0 x1 x2 x3 x4 x5 x6 x7 x8 x9 x10 x11 x12
      = Cert.KernelIdeal.Whole.resultOf x0 x1 x2 x3 x4 x5 x6 x7 x8 x9 x10 x11 x12 := by
  funext i
  obtain ⟨p, q, rfl⟩ : ∃ (p : Fin 50000) (q : Fin 128), i = ix2 p q := ⟨i 0, i 1, eq_ix2 i⟩
  rw [Cert.ReferenceIdeal.Rows.result_at, Cert.ReferenceIdeal.Graph.agg2_eq, hidden_eq]
  unfold Cert.KernelIdeal.Whole.resultOf
  rw [Cert.KernelIdeal.Output.O_at]
  simp only [Cert.ReferenceIdeal.Graph.row256_apply, Cert.ReferenceIdeal.Graph.row128_apply]

end Cert.Bridge

end
-- ==== Proof.lean ====
/-
  A two-layer GraphSAGE network computed by two pallas_calls with the graph's gather and scatter left to the host,
  against the same network written in plain jnp: the two programs end with equal results over the extended reals.

  Both programs aggregate each node's in-neighbours by a gather and an accumulating scatter and divide by the
  neighbour count; those lines are the same operations in both (Glue.lean, RefGraph.lean), except that the reference
  multiplies the first layer's gathered rows by an all-ones weight, and x · 1 = x. The dense part of each layer — two
  products with transposed weights, a bias, the row's Euclidean norm floored at ε, a division, tanh — acts on every
  node row separately (Spec.lean). The kernel computes it 2000 rows at a time (TileRow.lean, KHidden.lean,
  KOutput.lean); the reference on all 50000 rows at once (RefRows.lean); on the extended reals a change of float
  format is the identity and both matrix products are the plain sum over the contracted axis, so row by row they are
  one function (Bridge.lean). No algebraic law beyond x · 1 = x and 0 + x = x is used, so the inputs' finiteness is
  never opened. The ideal pass rewrote nothing, so the kernel's idealization is the kernel's own text.
-/
import proofs.«135690_j37778532336373_1_alg».proof.Defs
import proofs.«135690_j37778532336373_1_alg».proof.Proof.Gen.Kernel
import proofs.«135690_j37778532336373_1_alg».proof.Proof.Gen.Kernel.Skeleton
import proofs.«135690_j37778532336373_1_alg».proof.Proof.KernelLaunch
import proofs.«135690_j37778532336373_1_alg».proof.Proof.Gen.Kernel.Points
import proofs.«135690_j37778532336373_1_alg».proof.Proof.KernelFrame
import proofs.«135690_j37778532336373_1_alg».proof.Proof.Gen.KernelIdeal
import proofs.«135690_j37778532336373_1_alg».proof.Proof.Gen.KernelIdeal.Skeleton
import proofs.«135690_j37778532336373_1_alg».proof.Proof.KernelIdealLaunch
import proofs.«135690_j37778532336373_1_alg».proof.Proof.Gen.KernelIdeal.Points
import proofs.«135690_j37778532336373_1_alg».proof.Proof.KernelIdealFrame
import proofs.«135690_j37778532336373_1_alg».proof.Proof.KernelIdealRun
import proofs.«135690_j37778532336373_1_alg».proof.Proof.Gen.ReferenceIdeal
import proofs.«135690_j37778532336373_1_alg».proof.Proof.Gen.ReferenceIdeal.Run
import proofs.«135690_j37778532336373_1_alg».proof.Proof.Gen.ReferenceIdeal.Read
import proofs.«135690_j37778532336373_1_alg».proof.Proof.Gen.Pre_finite_inputs
import proofs.«135690_j37778532336373_1_alg».proof.Proof.KWhole
import proofs.«135690_j37778532336373_1_alg».proof.Proof.Bridge
import Idealize.ShloMosaic.Adequacy
import Idealize.ShloMosaic.Init

noncomputable section

namespace Cert.Proof

open Idealize.ShloMosaic Idealize.SL.Sem

/-- The word-level kernel program terminates, faults nowhere and leaves its arguments as launched. -/
theorem frame_k : Cert.frame_Kernel := fun m ρ _ => Cert.Kernel.GenP.frame m ρ

/-- So does its reading over the extended reals. -/
theorem frame_ki : Cert.frame_KernelIdeal := fun m ρ _ => Cert.KernelIdeal.GenP.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the thirteen arguments both programs end with the network's output of those arguments:
    the kernel program by its run with the result named and the two regions' values, the reference by its run and
    its stages; the two are one function of the arguments. -/
theorem algebraic : Cert.algebraic_KernelIdeal_ReferenceIdeal := by
  intro m ρ m' ρ' _ hagree
  refine ⟨fun c => Cert.KernelIdeal.Whole.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Whole.result_eq m ρ c), (h c).2⟩)
      (Cert.KernelIdeal.GenP.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v86_eq, h0, h1, h2, h3, h4, h5, h6, h7, h8, h9, h10, h11, h12]
    exact Cert.Bridge.result_eq _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
